-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S100000x2 : Shape := ⟨2, ![100000, 2]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S64x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg14
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S256x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_v48 main_v49 main_v50

def fn_part1 {F : FTy → Type} [FloatOps F] (main_arg7 : FVec F S128x128 .f32) (main_arg8 : FVec F S128x128 .f32) (main_arg9 : FVec F S128 .f32) (main_arg10 : FVec F S256x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S2x600000 32) (main_arg2 : IVec S600000 32) (main_arg3 : IVec S100000x2 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S256x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S100000x2 : Shape := ⟨2, ![100000, 2]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S5000x128 : Shape := ⟨2, ![5000, 128]⟩
abbrev S100000x256 : Shape := ⟨2, ![100000, 256]⟩
abbrev S1x64 : Shape := ⟨2, ![1, 64]⟩
abbrev S1x1 : Shape := ⟨2, ![1, 1]⟩
abbrev S5000x256 : Shape := ⟨2, ![5000, 256]⟩
abbrev S5000x1 : Shape := ⟨2, ![5000, 1]⟩
abbrev S5000x64 : Shape := ⟨2, ![5000, 64]⟩

abbrev nBuf : Space → Nat
  | .hbm => 95
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .i32⟩
  | .hbm, ⟨3, _⟩ => ⟨S100000x2, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S100000, .f32⟩
  | .hbm, ⟨24, _⟩ => ⟨S600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S100000x128, .f32⟩
  | .hbm, ⟨44, _⟩ => ⟨S600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x1, .i32⟩
  | .hbm, ⟨68, _⟩ => ⟨S100000, .i32⟩
  | .hbm, ⟨69, _⟩ => ⟨S_, .i32⟩
  | .hbm, ⟨70, _⟩ => ⟨S100000, .i32⟩
  | .hbm, ⟨71, _⟩ => ⟨S100000, .i1⟩
  | .hbm, ⟨72, _⟩ => ⟨S_, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000x1, .i32⟩
  | .hbm, ⟨77, _⟩ => ⟨S100000x128, .f32⟩
  | .hbm, ⟨78, _⟩ => ⟨S100000x1, .i32⟩
  | .hbm, ⟨79, _⟩ => ⟨S100000, .i32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S100000x128, .f32⟩
  | .hbm, ⟨89, _⟩ => ⟨S100000x256, .f32⟩
  | .hbm, ⟨90, _⟩ => ⟨S1x128, .f32⟩
  | .hbm, ⟨91, _⟩ => ⟨S1x64, .f32⟩
  | .hbm, ⟨92, _⟩ => ⟨S1x1, .f32⟩
  | .hbm, ⟨93, _⟩ => ⟨S100000x1, .f32⟩
  | .hbm, ⟨94, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_8 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x2_S100000x1_0_0 : S100000x2.Slices ![0, 0] S100000x1
  shapeCasts_S100000x1_S100000 : S100000x1.ShapeCasts S100000
  slices_S100000x2_S100000x1_0_1 : S100000x2.Slices ![0, 1] S100000x1
  concatenates_S100000x128_S100000x128_S100000x256_d1 : Shape.Concatenates [S100000x128, S100000x128] S100000x256 1
  shapeCasts_S64_S1x64 : S64.ShapeCasts S1x64
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  gather_S100000x128_S100000x1_S100000x128_1_0_n_n_0_1_1128_wf : GatherDims.WF S100000x128 S100000x1 S100000x128 [1] [0] [] [0] [] 1 ![1, 128]
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S100000x2 : Shape := ⟨2, ![100000, 2]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x256 : Shape := ⟨2, ![100000, 256]⟩
abbrev S100000x64 : Shape := ⟨2, ![100000, 64]⟩
abbrev S1x64 : Shape := ⟨2, ![1, 64]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x600000, .i32⟩
  | 2 => ⟨S600000, .i32⟩
  | 3 => ⟨S100000x2, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S256x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S1x600000, .i32⟩
  | 17 => ⟨S600000, .i32⟩
  | 18 => ⟨S1x600000, .i32⟩
  | 19 => ⟨S600000, .i32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S_, .f32⟩
  | 34 => ⟨S600000, .f32⟩
  | 35 => ⟨S_, .f32⟩
  | 36 => ⟨S100000, .f32⟩
  | 37 => ⟨S600000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S600000, .f32⟩
  | 69 => ⟨S_, .f32⟩
  | 70 => ⟨S100000, .f32⟩
  | 71 => ⟨S600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x1, .i32⟩
  | 89 => ⟨S100000, .i32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x128, .f32⟩
  | 99 => ⟨S100000x1, .i32⟩
  | 100 => ⟨S100000, .i32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x128, .f32⟩
  | 110 => ⟨S100000x256, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x1, .f32⟩
  | 126 => ⟨S1x1, .f32⟩
  | 127 => ⟨S100000x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S_, .f32⟩
  | 7 => ⟨S100000x1, .f32⟩
  | 8 => ⟨S100000x1, .f32⟩
  | 9 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call2_cst : Ref sig .tc := ⟨.hbm, 115, rfl⟩
abbrev main_call2_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call3_cst : Ref sig .tc := ⟨.hbm, 122, rfl⟩
abbrev main_call3_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_14 : Ref sig .tc := ⟨.hbm, 131, rfl⟩
abbrev main_v91 : Ref sig .tc := ⟨.hbm, 132, rfl⟩
abbrev main_v92 : Ref sig .tc := ⟨.hbm, 133, rfl⟩
abbrev main_cst_15 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x2_S100000x1_0_0 : S100000x2.Slices ![0, 0] S100000x1
  shapeCasts_S100000x1_S100000 : S100000x1.ShapeCasts S100000
  slices_S100000x2_S100000x1_0_1 : S100000x2.Slices ![0, 1] S100000x1
  concatenates_S100000x128_S100000x128_S100000x256_d1 : Shape.Concatenates [S100000x128, S100000x128] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  What both programs compute, index by index, over the extended reals.

  One graph-convolution layer sends a node's mean-aggregated neighbour features `mean` and its own features `h`
  to `max (mean · W_rel + h · W_root + b) 0`: two 128-term inner products per output entry, a bias, a clamp at zero.
  The link head sends a 256-wide pair feature through three affine maps (256 → 128 → 64 → 1), clamping at zero after
  the first two and applying the logistic function after the third.
  Three pointwise laws join the two programs' spellings: dividing by `c` is multiplying by `1 / c` whenever `c ≠ 0`
  (at the infinities too), a maximum with one is never zero, and the two float words `1.0` and `0.0` denote 1 and 0.
-/
import Idealize.ShloMosaic.PureOps.Ideal
import Idealize.ShloMosaic.PureOps.Ideal.Laws
import Idealize.ShloMosaic.Lib.ValueIdx

noncomputable section

open scoped BigOperators

namespace Cert.Rgcn

open Idealize.ShloMosaic Idealize.ShloMosaic.ValueIdx

/-- A bias held as a one-row matrix, read as a vector. -/
def row {n : Nat} (b : (⟨2, ![1, n]⟩ : Shape).Idx → EReal) : (⟨1, ![n]⟩ : Shape).Idx → EReal :=
  fun j => b (ix2 (0 : Fin 1) (⟨(j 0).val, (j 0).isLt⟩ : Fin n))

/-! ## One layer -/

/-- Entry `(r, q)` of a layer: row `r` of `mean` against column `q` of `wrel`, plus row `r` of `h` against column `q` of
    `wroot`, plus the bias at `q`, clamped below at zero. -/
def layerAt (mean h : (⟨2, ![100000, 128]⟩ : Shape).Idx → EReal) (wrel wroot : (⟨2, ![128, 128]⟩ : Shape).Idx → EReal)
    (b : (⟨1, ![128]⟩ : Shape).Idx → EReal) (r : Fin 100000) (q : Fin 128) : EReal :=
  max (((∑ k : Fin 128, mean (ix2 r k) * wrel (ix2 k q)) + ∑ k : Fin 128, h (ix2 r k) * wroot (ix2 k q)) + b (ix1 q)) 0

/-- The layer as an array of node features. -/
def layer (mean h : (⟨2, ![100000, 128]⟩ : Shape).Idx → EReal) (wrel wroot : (⟨2, ![128, 128]⟩ : Shape).Idx → EReal)
    (b : (⟨1, ![128]⟩ : Shape).Idx → EReal) : (⟨2, ![100000, 128]⟩ : Shape).Idx → EReal :=
  fun i => layerAt mean h wrel wroot b (i 0) (i 1)

/-! ## The link head -/

/-- Hidden unit `k2` of the first affine map on pair `r`, clamped at zero. -/
def hid1At (e : (⟨2, ![100000, 256]⟩ : Shape).Idx → EReal) (wp1 : (⟨2, ![256, 128]⟩ : Shape).Idx → EReal)
    (bp1 : (⟨1, ![128]⟩ : Shape).Idx → EReal) (r : Fin 100000) (k2 : Fin 128) : EReal :=
  max ((∑ k1 : Fin 256, e (ix2 r k1) * wp1 (ix2 k1 k2)) + bp1 (ix1 k2)) 0

/-- Hidden unit `k3` of the second affine map on pair `r`, clamped at zero. -/
def hid2At (e : (⟨2, ![100000, 256]⟩ : Shape).Idx → EReal) (wp1 : (⟨2, ![256, 128]⟩ : Shape).Idx → EReal)
    (bp1 : (⟨1, ![128]⟩ : Shape).Idx → EReal) (wp2 : (⟨2, ![128, 64]⟩ : Shape).Idx → EReal)
    (bp2 : (⟨1, ![64]⟩ : Shape).Idx → EReal) (r : Fin 100000) (k3 : Fin 64) : EReal :=
  max ((∑ k2 : Fin 128, hid1At e wp1 bp1 r k2 * wp2 (ix2 k2 k3)) + bp2 (ix1 k3)) 0

/-- The score of pair `r`: the logistic function of the third affine map. -/
def headAt (e : (⟨2, ![100000, 256]⟩ : Shape).Idx → EReal) (wp1 : (⟨2, ![256, 128]⟩ : Shape).Idx → EReal)
    (bp1 : (⟨1, ![128]⟩ : Shape).Idx → EReal) (wp2 : (⟨2, ![128, 64]⟩ : Shape).Idx → EReal)
    (bp2 : (⟨1, ![64]⟩ : Shape).Idx → EReal) (wp3 : (⟨2, ![64, 1]⟩ : Shape).Idx → EReal)
    (bp3 : (⟨1, ![1]⟩ : Shape).Idx → EReal) (r : Fin 100000) : EReal :=
  Ideal.logistic ((∑ k3 : Fin 64, hid2At e wp1 bp1 wp2 bp2 r k3 * wp3 (ix2 k3 (0 : Fin 1))) + bp3 (ix1 (0 : Fin 1)))

/-- The head as a column of scores. -/
def head (e : (⟨2, ![100000, 256]⟩ : Shape).Idx → EReal) (wp1 : (⟨2, ![256, 128]⟩ : Shape).Idx → EReal)
    (bp1 : (⟨1, ![128]⟩ : Shape).Idx → EReal) (wp2 : (⟨2, ![128, 64]⟩ : Shape).Idx → EReal)
    (bp2 : (⟨1, ![64]⟩ : Shape).Idx → EReal) (wp3 : (⟨2, ![64, 1]⟩ : Shape).Idx → EReal)
    (bp3 : (⟨1, ![1]⟩ : Shape).Idx → EReal) : (⟨2, ![100000, 1]⟩ : Shape).Idx → EReal :=
  fun i => headAt e wp1 bp1 wp2 bp2 wp3 bp3 (i 0)

/-! ## The pointwise laws -/

/-- The float word `1.0` denotes the real number one. -/
theorem ofBits_one_f32 : Ideal.ofBits .f32 0x3F800000#32 = 1 := by
  simp [Ideal.ofBits, Ideal.ieee, -EReal.coe_mul]; norm_num

/-- A maximum with one is not zero. -/
theorem max_one_ne_zero (x : EReal) : max x 1 ≠ 0 := by
  have h : (0 : EReal) < max x 1 := lt_of_lt_of_le zero_lt_one (le_max_right x 1)
  exact ne_of_gt h

/-- Multiplying by the reciprocal of a nonzero `y` is dividing by `y`, for every extended real `x`. -/
theorem mul_one_div (x y : EReal) (hy : y ≠ 0) : x * Ideal.div 1 y = Ideal.div x y := by
  unfold Ideal.div
  rw [if_neg hy, if_neg hy, one_mul]

/-- The logistic function spelt out with the constant one. -/
theorem logistic_spelt (x : EReal) : Ideal.div 1 (1 + Ideal.exp (-x)) = Ideal.logistic x := rfl

end Cert.Rgcn

end
-- ==== Proof.Host0.lean ====
/-
  What the first region finds in its input arrays, as functions of the launch arguments.
  The host stretch before it slices the edge list into sources and destinations, counts each node's incoming edges
  (a scatter-add of ones), takes the reciprocal of `max count 1`, gathers the source rows of the node features,
  scatter-adds them at the destinations and multiplies by the reciprocal column. The reference divides the same
  scatter-add by `max count 1` instead: the two are one array, since dividing by a nonzero `c` is multiplying by
  `1 / c` for every extended real, and a maximum with one is never zero.
-/
import proofs.«168571_j66898410602822_1_alg».proof.Proof.Gen.KernelIdeal.Frame
import proofs.«168571_j66898410602822_1_alg».proof.Proof.Gen.ReferenceIdeal.Read
import proofs.«168571_j66898410602822_1_alg».proof.Proof.Spec
import Idealize.ShloMosaic.Lib.StableHlo.Run

noncomputable section

open scoped BigOperators

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- Argument 0 as launched. -/
abbrev a0 (c : Dev nD) := m ((c : Thread nD τ).loc main_arg0)
/-- Argument 1 as launched. -/
abbrev a1 (c : Dev nD) := m ((c : Thread nD τ).loc main_arg1)
/-- Argument 3 as launched. -/
abbrev a3 (c : Dev nD) := m ((c : Thread nD τ).loc main_arg3)
/-- Argument 4 as launched. -/
abbrev a4 (c : Dev nD) := m ((c : Thread nD τ).loc main_arg4)
/-- Argument 5 as launched. -/
abbrev a5 (c : Dev nD) := m ((c : Thread nD τ).loc main_arg5)
/-- Argument 6 as launched. -/
abbrev a6 (c : Dev nD) := m ((c : Thread nD τ).loc main_arg6)
/-- Argument 7 as launched. -/
abbrev a7 (c : Dev nD) := m ((c : Thread nD τ).loc main_arg7)
/-- Argument 8 as launched. -/
abbrev a8 (c : Dev nD) := m ((c : Thread nD τ).loc main_arg8)
/-- Argument 9 as launched. -/
abbrev a9 (c : Dev nD) := m ((c : Thread nD τ).loc main_arg9)
/-- Argument 10 as launched. -/
abbrev a10 (c : Dev nD) := m ((c : Thread nD τ).loc main_arg10)
/-- Argument 11 as launched. -/
abbrev a11 (c : Dev nD) := m ((c : Thread nD τ).loc main_arg11)
/-- Argument 12 as launched. -/
abbrev a12 (c : Dev nD) := m ((c : Thread nD τ).loc main_arg12)
/-- Argument 13 as launched. -/
abbrev a13 (c : Dev nD) := m ((c : Thread nD τ).loc main_arg13)
/-- Argument 14 as launched. -/
abbrev a14 (c : Dev nD) := m ((c : Thread nD τ).loc main_arg14)
/-- Argument 15 as launched. -/
abbrev a15 (c : Dev nD) := m ((c : Thread nD τ).loc main_arg15)

/-- The reciprocal column the kernel program multiplies by: `1 / max count 1`, one entry per node. -/
def invCnt (x1 : (⟨S2x600000, .i32⟩ : BufTy).Contents (Elt Ideal)) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (show FVec Ideal S100000 .f32 from Cert.ReferenceIdeal.Read.val_main_v19 (F := Ideal) x1))

/-- A column spread over the 128 lanes, read at `i`, is the column at row `i 0`. -/
private theorem bcast_col_apply (y : S100000x1.Idx → EReal) (i : S100000x128.Idx) :
    broadcastInDim S100000x128 ![0, 1] bcast_S100000x1_S100000x128_0_1 y i
      = y (ix2 (⟨(i 0).val, (i 0).isLt⟩ : Fin 100000) (0 : Fin 1)) :=
  broadcastInDim_apply _ bcast_S100000x1_S100000x128_0_1 y i (ix2 (⟨(i 0).val, (i 0).isLt⟩ : Fin 100000) (0 : Fin 1))
    (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])

/-- A vector stood up as a column, read at `k`, is the vector at `k 0`. -/
private theorem bcast_vec_apply (y : S100000.Idx → EReal) (k : S100000x1.Idx) :
    broadcastInDim S100000x1 ![0] bcast_S100000_S100000x1_0 y k = y (ix1 (⟨(k 0).val, (k 0).isLt⟩ : Fin 100000)) :=
  broadcastInDim_apply _ bcast_S100000_S100000x1_0 y k (ix1 (⟨(k 0).val, (k 0).isLt⟩ : Fin 100000))
    (fun a => match a with
      | ⟨0, _⟩ => by show (k 0).val = if (100000 : Nat) = 1 then 0 else (k 0).val; rw [if_neg (by decide)])

/-- A scalar spread over a vector, read anywhere, is the scalar. -/
private theorem bcast_scalar_apply (z : S_.Idx → EReal) (j : S100000.Idx) :
    broadcastInDim S100000 ![] bcast_S_S100000 z j = z ix0 :=
  broadcastInDim_apply _ bcast_S_S100000 z j ix0 (fun a => a.elim0)

/-- The reference's `max count 1`, as a full array, read at `i`: the clamped count of row `i 0`. -/
private theorem v21_apply (x1 : (⟨S2x600000, .i32⟩ : BufTy).Contents (Elt Ideal)) (i : S100000x128.Idx) :
    Cert.ReferenceIdeal.Read.val_main_v21 (F := Ideal) x1 i
      = Cert.ReferenceIdeal.Read.val_main_v19 (F := Ideal) x1 (ix1 (⟨(i 0).val, (i 0).isLt⟩ : Fin 100000)) := by
  rw [Cert.ReferenceIdeal.Read.val_main_v21_apply, Cert.ReferenceIdeal.Read.val_main_v20_apply]
  exact congrArg _ (funext fun a => match a with | ⟨0, _⟩ => rfl)

/-- The clamped count is never zero. -/
private theorem v19_ne_zero (x1 : (⟨S2x600000, .i32⟩ : BufTy).Contents (Elt Ideal)) (k : S100000.Idx) :
    Cert.ReferenceIdeal.Read.val_main_v19 (F := Ideal) x1 k ≠ 0 := by
  rw [Cert.ReferenceIdeal.Read.val_main_v19_apply, Cert.ReferenceIdeal.Read.val_main_v18_apply,
    Cert.ReferenceIdeal.Read.val_main_cst_3_apply]
  show max _ (Ideal.ofBits .f32 0x3F800000#32) ≠ 0
  rw [Cert.Rgcn.ofBits_one_f32]
  exact Cert.Rgcn.max_one_ne_zero _

/-- The host's quotient of two arrays, read at an index, is the quotient of the entries. -/
private theorem hdiv_apply {s : Shape} {φ : FTy} (a b : FVec Ideal s φ) (i : s.Idx) :
    Host.divf a b i = Ideal.div (a i) (b i) := rfl

/-- The reciprocal column read at `k`: one over the clamped count of row `k 0`. -/
private theorem invCnt_apply (x1 : (⟨S2x600000, .i32⟩ : BufTy).Contents (Elt Ideal)) (k : S100000x1.Idx) :
    invCnt x1 k = Ideal.div 1 (Cert.ReferenceIdeal.Read.val_main_v19 (F := Ideal) x1 (ix1 (⟨(k 0).val, (k 0).isLt⟩ : Fin 100000))) := by
  unfold invCnt
  rw [bcast_vec_apply, hdiv_apply, bcast_scalar_apply, constant_apply, Cert.Rgcn.ofBits_one_f32]

/-- Multiplying an array by the reciprocal column, row by row, is dividing it by `max count 1`. -/
theorem mean_law (A : FVec Ideal S100000x128 .f32) (x1 : (⟨S2x600000, .i32⟩ : BufTy).Contents (Elt Ideal)) :
    mulf (F := Ideal) A (broadcastInDim S100000x128 ![0, 1] bcast_S100000x1_S100000x128_0_1 (invCnt x1))
      = Host.divf (F := Ideal) A (show FVec Ideal S100000x128 .f32 from Cert.ReferenceIdeal.Read.val_main_v21 (F := Ideal) x1) := by
  funext i
  rw [mulf_apply, hdiv_apply, bcast_col_apply, invCnt_apply]
  refine Eq.trans ?_ (congrArg (Ideal.div (A i)) (v21_apply x1 i).symm)
  exact Cert.Rgcn.mul_one_div _ _ (v19_ne_zero x1 _)

/-- After the first host stretch: the edge sources. -/
theorem w1_src (c : Dev nD) : W1 m ρ c (Proc.devRef .tc main_v1) = Cert.ReferenceIdeal.Read.val_main_v1 (F := Ideal) (a1 m c) := by
  show StableHlo.after hostOps0 _ (Proc.devRef .tc main_v1) = _
  after_results
  rfl
/-- After the first host stretch: the edge destinations. -/
theorem w1_dst (c : Dev nD) : W1 m ρ c (Proc.devRef .tc main_v3) = Cert.ReferenceIdeal.Read.val_main_v3 (F := Ideal) (a1 m c) := by
  show StableHlo.after hostOps0 _ (Proc.devRef .tc main_v3) = _
  after_results
  rfl
/-- After the first host stretch: the reciprocal column. -/
theorem w1_inv (c : Dev nD) : W1 m ρ c (Proc.devRef .tc main_v12) = invCnt (a1 m c) := by
  show StableHlo.after hostOps0 _ (Proc.devRef .tc main_v12) = _
  after_results
  rfl

/-- The first region finds the reference's mean-aggregated input in its first window's array. -/
theorem entry0_mean (c : Dev nD) : V1 m ρ c main_v24 = Cert.ReferenceIdeal.Read.val_main_v22 (F := Ideal) (a0 m c) (a1 m c) := by
  have e : (V1 m ρ c main_v24 : FVec Ideal S100000x128 .f32)
      = mulf (F := Ideal) (show FVec Ideal S100000x128 .f32 from Cert.ReferenceIdeal.Read.val_main_v13 (F := Ideal) (a0 m c) (a1 m c))
          (broadcastInDim S100000x128 ![0, 1] bcast_S100000x1_S100000x128_0_1 (invCnt (a1 m c))) := by
    show StableHlo.after hostOps0 _ (Proc.devRef .tc main_v24) = _
    after_results_simp
    rfl
  exact e.trans (mean_law _ _)
theorem entry0_h (c : Dev nD) : V1 m ρ c main_arg0 = a0 m c :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem entry0_wrel (c : Dev nD) : V1 m ρ c main_arg4 = a4 m c :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem entry0_wroot (c : Dev nD) : V1 m ρ c main_arg5 = a5 m c :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- The bias row the region finds, read as a vector, is the bias argument. -/
theorem entry0_bias (c : Dev nD) : Cert.Rgcn.row (V1 m ρ c main_v25) = a6 m c := by
  have e : (V1 m ρ c main_v25 : S1x128.Idx → EReal)
      = shapeCast S1x128 (a6 m c : S128.Idx → EReal) shapeCasts_S128_S1x128 := by
    show StableHlo.after hostOps0 _ (Proc.devRef .tc main_v25) = _
    after_results
    rfl
  funext j
  show (V1 m ρ c main_v25 : S1x128.Idx → EReal) (ix2 (0 : Fin 1) (⟨(j 0).val, (j 0).isLt⟩ : Fin 128)) = _
  rw [e]
  exact shapeCast_apply (s := S128) (t := S1x128) (a6 m c) shapeCasts_S128_S1x128 _ j (by
    rw [Shape.rowMajor_val_two, Shape.rowMajor_val_one]
    show (j 0).val = 0 * 128 + (j 0).val
    omega)

end Cert.KernelIdeal.Host

end
-- ==== Proof.LayerPayload.lean ====
/-
  The layer kernel's body at one entry of its block. The body multiplies the block of aggregated features by the
  relation weights and the block of node features by the root weights (both into a zero accumulator), adds the two
  products and the bias row, and clamps at zero; the narrowing to half precision before each product is the identity
  over the extended reals. So entry `(p, q)` of the block is the layer's formula on row `p` of the two blocks.
-/
import proofs.«168571_j66898410602822_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.LayerPayload

open Cert.KernelIdeal Cert.KernelIdeal.Gen Idealize.ShloMosaic Idealize.ShloMosaic.ValueIdx

/-! ## The product's operand indices

The dimension record contracts the left operand's second axis with the right operand's first; the output's rows are
the left operand's rows and its columns the right operand's columns. Read at an output index and a contraction
index, the operand indices are therefore (row, contraction) and (contraction, column). -/

/-- The left operand's row is the output's row. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction coordinate. -/
theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction coordinate. -/
theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the output's column. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero accumulator, read at entry `(p, q)`: row `p` of the left operand against column `q` of the
    right operand. -/
theorem matmul_zero_apply (x : FVec Ideal S5000x128 .bf16) (w : FVec Ideal S128x128 .bf16) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The shared tail of the two bodies: two products into zero accumulators, added, plus the broadcast bias row, clamped at
    zero. The narrowing before each product is the identity over the extended reals. -/
theorem body_apply (a h : FVec Ideal S5000x128 .f32) (wr wo : FVec Ideal S128x128 .f32) (b : FVec Ideal S1x128 .f32)
    (p : Fin 5000) (q : Fin 128) :
    maximumf
        (addf
          (addf
            (matmul dot_S5000x128_S128x128_S5000x128_1_0_0_1_n_n none (truncf .bf16 a bitsLt_bf16_f32) (truncf .bf16 wr bitsLt_bf16_f32)
              (constant (F := Ideal) S5000x128 .f32 0x00000000#32))
            (matmul dot_S5000x128_S128x128_S5000x128_1_0_0_1_n_n none (truncf .bf16 h bitsLt_bf16_f32) (truncf .bf16 wo bitsLt_bf16_f32)
              (constant (F := Ideal) S5000x128 .f32 0x00000000#32)))
          (broadcastTo S5000x128 b broadcasts_S1x128_S5000x128))
        (broadcast S5000x128 (Scalar.ofBits (F := Ideal) .f32 0x00000000#32)) (ix2 p q)
      = max (((∑ k : Fin 128, a (ix2 p k) * wr (ix2 k q)) + ∑ k : Fin 128, h (ix2 p k) * wo (ix2 k q)) + b (ix2 (0 : Fin 1) q)) 0 := by
  show max ((FloatOps.matmul dot_S5000x128_S128x128_S5000x128_1_0_0_1_n_n none (truncf .bf16 a bitsLt_bf16_f32) (truncf .bf16 wr bitsLt_bf16_f32)
              (constant (F := Ideal) S5000x128 .f32 0x00000000#32) (ix2 p q)
            + FloatOps.matmul dot_S5000x128_S128x128_S5000x128_1_0_0_1_n_n none (truncf .bf16 h bitsLt_bf16_f32) (truncf .bf16 wo bitsLt_bf16_f32)
              (constant (F := Ideal) S5000x128 .f32 0x00000000#32) (ix2 p q))
          + broadcastTo S5000x128 b broadcasts_S1x128_S5000x128 (ix2 p q)) (Ideal.ofBits .f32 0x00000000#32) = _
  rw [matmul_zero_apply, matmul_zero_apply, broadcastTo_1b_ab_apply, Ideal.ofBits_zero_f32]
  rfl

/-- The first layer's body at entry `(p, q)` of its block. -/
theorem pay0_apply (v0 v3 : Vec Ideal S5000x128 .f32) (v5 v7 : Vec Ideal S128x128 .f32) (v12 : Vec Ideal S1x128 .f32)
    (p : Fin 5000) (q : Fin 128) :
    k0_pay1 (F := Ideal) v0 v3 v5 v7 v12 (ix2 p q)
      = max (((∑ k : Fin 128, v0 (ix2 p k) * v5 (ix2 k q)) + ∑ k : Fin 128, v3 (ix2 p k) * v7 (ix2 k q))
          + v12 (ix2 (0 : Fin 1) q)) 0 := by
  unfold k0_pay1
  rw [shapeCast_self, shapeCast_self]
  exact body_apply v0 v3 v5 v7 v12 p q

/-- The second layer's body at entry `(p, q)` of its block. -/
theorem pay1_apply (v0 v3 : Vec Ideal S5000x128 .f32) (v6 v8 : Vec Ideal S128x128 .f32) (v13 : Vec Ideal S1x128 .f32)
    (p : Fin 5000) (q : Fin 128) :
    k1_pay1 (F := Ideal) v0 v3 v6 v8 v13 (ix2 p q)
      = max (((∑ k : Fin 128, v0 (ix2 p k) * v6 (ix2 k q)) + ∑ k : Fin 128, v3 (ix2 p k) * v8 (ix2 k q))
          + v13 (ix2 (0 : Fin 1) q)) 0 := by
  unfold k1_pay1
  rw [shapeCast_self, shapeCast_self, shapeCast_self]
  exact body_apply v0 v3 v6 v8 v13 p q

end Cert.KernelIdeal.LayerPayload

end
-- ==== Proof.Region0.lean ====
/-
  The first layer's region: the grid's twenty points each write one block of 5000 rows, and block `t` holds the layer
  function of rows `5000 t … 5000 t + 4999` of the region's input arrays (the weights and the bias row are the same
  whole block at every point). The blocks tile the output array, so the array ends holding the layer function of the
  input arrays as the region finds them.
-/
import proofs.«168571_j66898410602822_1_alg».proof.Proof.Gen.KernelIdeal.Frame
import proofs.«168571_j66898410602822_1_alg».proof.Proof.Spec
import proofs.«168571_j66898410602822_1_alg».proof.Proof.LayerPayload

noncomputable section

open scoped BigOperators

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The body reads and writes every block from its corner: both offsets are zero. -/
theorem corner_offsets : (![0, 0] : Fin 2 → Nat) = fun _ => 0 := funext fun a => by fin_cases a <;> rfl

/-- Where each window's block sits at grid point `t`: the two feature arrays and the output move down one block of rows
    per point and stay in the one block of columns; the two weight matrices and the bias row are the one block of
    their whole array at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the body sees at a point, and the arrays they are cut from -/

/-- The 5000 rows of aggregated neighbour features at point `t`. -/
abbrev aggBlk (c : Dev nD) (t : Fin cfg0.N) : Vec Ideal S5000x128 .f32 := iblk0 V c 0 t
/-- The 5000 rows of node features at point `t`. -/
abbrev nodeBlk (c : Dev nD) (t : Fin cfg0.N) : Vec Ideal S5000x128 .f32 := iblk0 V c 1 t
/-- The relation weights as the body sees them at point `t`. -/
abbrev relBlk (c : Dev nD) (t : Fin cfg0.N) : Vec Ideal S128x128 .f32 := iblk0 V c 2 t
/-- The root weights as the body sees them at point `t`. -/
abbrev rootBlk (c : Dev nD) (t : Fin cfg0.N) : Vec Ideal S128x128 .f32 := iblk0 V c 3 t
/-- The bias row as the body sees it at point `t`. -/
abbrev biasBlk (c : Dev nD) (t : Fin cfg0.N) : Vec Ideal S1x128 .f32 := iblk0 V c 4 t

/-- The aggregated neighbour features, all 100000 rows. -/
abbrev aggArr (c : Dev nD) : S100000x128.Idx → EReal := V c main_v24
/-- The node features, all 100000 rows. -/
abbrev nodeArr (c : Dev nD) : S100000x128.Idx → EReal := V c main_arg0
/-- The relation weights. -/
abbrev relArr (c : Dev nD) : S128x128.Idx → EReal := V c main_arg4
/-- The root weights. -/
abbrev rootArr (c : Dev nD) : S128x128.Idx → EReal := V c main_arg5
/-- The bias, as a one-row matrix. -/
abbrev biasArr (c : Dev nD) : S1x128.Idx → EReal := V c main_v25

/-! ## Each block read where it lies in its array

An entry of a block sits in the array, on each axis, at the block's index times the block's extent plus the entry's
own coordinate. -/

/-- Row `p` of the aggregated block at point `t` is row `5000 t + p` of the aggregated features. -/
theorem aggBlk_apply (c : Dev nD) (t : Fin cfg0.N) (p : Fin 5000) (k : Fin 128) (r : Fin 100000)
    (hr : r.val = 5000 * t.val + p.val) :
    aggBlk V c t (ix2 p k) = aggArr V c (ix2 r k) := by
  obtain ⟨e0, e1, -⟩ := block_indices t
  show V c main_v24 (((cfg0.win 0).blk t).view.emb (ix2 p k)) = V c main_v24 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of the node block at point `t` is row `5000 t + p` of the node features. -/
theorem nodeBlk_apply (c : Dev nD) (t : Fin cfg0.N) (p : Fin 5000) (k : Fin 128) (r : Fin 100000)
    (hr : r.val = 5000 * t.val + p.val) :
    nodeBlk V c t (ix2 p k) = nodeArr V c (ix2 r k) := by
  obtain ⟨-, -, e0, e1, -⟩ := block_indices t
  show V c main_arg0 (((cfg0.win 1).blk t).view.emb (ix2 p k)) = V c main_arg0 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The relation-weight block is the whole matrix at every point. -/
theorem relBlk_apply (c : Dev nD) (t : Fin cfg0.N) (k q : Fin 128) :
    relBlk V c t (ix2 k q) = relArr V c (ix2 k q) := by
  obtain ⟨-, -, -, -, e0, e1, -⟩ := block_indices t
  show V c main_arg4 (((cfg0.win 2).blk t).view.emb (ix2 k q)) = V c main_arg4 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The root-weight block is the whole matrix at every point. -/
theorem rootBlk_apply (c : Dev nD) (t : Fin cfg0.N) (k q : Fin 128) :
    rootBlk V c t (ix2 k q) = rootArr V c (ix2 k q) := by
  obtain ⟨-, -, -, -, -, -, e0, e1, -⟩ := block_indices t
  show V c main_arg5 (((cfg0.win 3).blk t).view.emb (ix2 k q)) = V c main_arg5 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block is the whole one-row matrix at every point. -/
theorem biasBlk_apply (c : Dev nD) (t : Fin cfg0.N) (q : Fin 128) :
    biasBlk V c t (ix2 (0 : Fin 1) q) = biasArr V c (ix2 (0 : Fin 1) q) := by
  obtain ⟨-, -, -, -, -, -, -, -, e0, e1, -⟩ := block_indices t
  show V c main_v25 (((cfg0.win 4).blk t).view.emb (ix2 (0 : Fin 1) q)) = V c main_v25 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of the output block at point `t` is entry `(5000 t + p, q)` of the output array. -/
theorem outBlk_emb (t : Fin cfg0.N) (p : Fin 5000) (q : Fin 128) (r : Fin 100000)
    (hr : r.val = 5000 * t.val + p.val) :
    ((cfg0.win 5).blk t).view.emb (ix2 p q) = (ix2 r q : S100000x128.Idx) := by
  obtain ⟨-, -, -, -, -, -, -, -, -, -, e0, e1⟩ := block_indices t
  refine funext fun a => Fin.ext ?_
  match a with
  | ⟨0, _⟩ => show win0_5.index t (0 : Fin 2) * 5000 + 1 * p.val = r.val; omega
  | ⟨1, _⟩ => show win0_5.index t (1 : Fin 2) * 128 + 1 * q.val = q.val; omega

/-! ## What a point writes back -/

/-- Point `t` writes back block `t` of the layer function of the input arrays: entry `(p, q)` of what the body leaves
    is the layer's formula on row `p` of the two feature blocks, which is row `5000 t + p` of the two feature arrays,
    against the whole weight matrices and bias row. -/
theorem flushed_eq (c : Dev nD) (t : Fin cfg0.N) :
    (dat0 V c).flushed 5 t = ((cfg0.win 5).blk t).view.read (Elt Ideal)
      (Cert.Rgcn.layer (V c main_v24) (V c main_arg0) (V c main_arg4) (V c main_arg5) (Cert.Rgcn.row (V c main_v25))) := by
  show (cfg0.win 5).cut (grid0.coords t) ((dat0 V c).after 5 t) = _
  rw [after0_5]
  unfold out0_5
  rw [View.canon_unit_zero corner_offsets]
  simp only [View.ld_unit_zero (S := S5000x128) corner_offsets, View.ld_unit_zero (S := S128x128) corner_offsets,
    View.ld_unit_zero (S := S1x128) corner_offsets]
  funext j
  obtain ⟨p, q, rfl⟩ : ∃ (p : Fin 5000) (q : Fin 128), j = ix2 p q := ⟨j 0, j 1, eq_ix2 j⟩
  have hN : cfg0.N = 20 := N_0
  have ht : t.val < cfg0.N := t.isLt
  obtain ⟨r, hr⟩ : ∃ r : Fin 100000, r.val = 5000 * t.val + p.val := ⟨⟨5000 * t.val + p.val, by omega⟩, rfl⟩
  show k0_pay1 (F := Ideal) (aggBlk V c t) (nodeBlk V c t) (relBlk V c t) (rootBlk V c t) (biasBlk V c t) (ix2 p q)
    = Cert.Rgcn.layer (V c main_v24) (V c main_arg0) (V c main_arg4) (V c main_arg5) (Cert.Rgcn.row (V c main_v25))
        (((cfg0.win 5).blk t).view.emb (ix2 p q))
  rw [LayerPayload.pay0_apply, outBlk_emb t p q r hr]
  show _ = max (((∑ k : Fin 128, aggArr V c (ix2 r k) * relArr V c (ix2 k q))
      + ∑ k : Fin 128, nodeArr V c (ix2 r k) * rootArr V c (ix2 k q)) + biasArr V c (ix2 (0 : Fin 1) q)) 0
  simp only [aggBlk_apply V c t p _ r hr, nodeBlk_apply V c t p _ r hr, relBlk_apply V c t, rootBlk_apply V c t,
    biasBlk_apply V c t]

/-! ## The blocks tile the output array -/

/-- An entry of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the output array is written back by point `r / 5000`. -/
theorem cover (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  let t : Fin cfg0.N := ⟨(i 0).val / 5000, by omega⟩
  have htv : t.val = (i 0).val / 5000 := rfl
  obtain ⟨-, -, -, -, -, -, -, -, -, -, e0, e1⟩ := block_indices t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The region's output array after its last point, from any entry contents `V`. -/
theorem final (c : Dev nD) :
    (dat0 (F := Ideal) V c).arrAt 5 cfg0.N
      = Cert.Rgcn.layer (V c main_v24) (V c main_arg0) (V c main_arg4) (V c main_arg5) (Cert.Rgcn.row (V c main_v25)) :=
  (dat0 V c).arrAt_eq_of_cover 5 _ (fun t _ => flushed_eq V c t) cover

end Cert.KernelIdeal.Region0

end
-- ==== Proof.RefLayers.lean ====
/-
  The reference program's three dense stages are the specification's functions of the stages before them: each layer
  is the matrix products, the bias and the clamp read at an index, and the head is the three affine maps with the
  logistic function spelt as `1 / (1 + exp (-z))`.
-/
import proofs.«168571_j66898410602822_1_alg».proof.Proof.Gen.ReferenceIdeal.Read
import proofs.«168571_j66898410602822_1_alg».proof.Proof.Spec

noncomputable section

open scoped BigOperators

namespace Cert.ReferenceIdeal.Layers

open Cert.ReferenceIdeal Cert.ReferenceIdeal.Read Idealize.ShloMosaic Idealize.ShloMosaic.ValueIdx

/-! ## Index equations

  Each dense stage reads its operands at index functions composed from the literal shapes. At an index given by its
  coordinates they are the coordinate constructors: a product's left operand is read at (row, k) and its right operand
  at (k, column); a bias broadcast along the rows is read at the column. -/

theorem lidx23 (r : Fin 100000) (q k : Fin 128) : lidx_main_v23 (ix2 r q) k = ix2 r k :=
  funext fun a => Fin.ext (by match a with | ⟨0, _⟩ => rfl | ⟨1, _⟩ => rfl)
theorem ridx23 (r : Fin 100000) (q k : Fin 128) : ridx_main_v23 (ix2 r q) k = ix2 k q :=
  funext fun a => Fin.ext (by match a with | ⟨0, _⟩ => rfl | ⟨1, _⟩ => rfl)
theorem lidx24 (r : Fin 100000) (q k : Fin 128) : lidx_main_v24 (ix2 r q) k = ix2 r k :=
  funext fun a => Fin.ext (by match a with | ⟨0, _⟩ => rfl | ⟨1, _⟩ => rfl)
theorem ridx24 (r : Fin 100000) (q k : Fin 128) : ridx_main_v24 (ix2 r q) k = ix2 k q :=
  funext fun a => Fin.ext (by match a with | ⟨0, _⟩ => rfl | ⟨1, _⟩ => rfl)
theorem idx26 (r : Fin 100000) (q : Fin 128) : idx_main_v26 (idx_main_v27 (ix2 r q)) = ix1 q :=
  funext fun a => Fin.ext (by match a with | ⟨0, _⟩ => rfl)

theorem lidx49 (r : Fin 100000) (q k : Fin 128) : lidx_main_v49 (ix2 r q) k = ix2 r k :=
  funext fun a => Fin.ext (by match a with | ⟨0, _⟩ => rfl | ⟨1, _⟩ => rfl)
theorem ridx49 (r : Fin 100000) (q k : Fin 128) : ridx_main_v49 (ix2 r q) k = ix2 k q :=
  funext fun a => Fin.ext (by match a with | ⟨0, _⟩ => rfl | ⟨1, _⟩ => rfl)
theorem lidx50 (r : Fin 100000) (q k : Fin 128) : lidx_main_v50 (ix2 r q) k = ix2 r k :=
  funext fun a => Fin.ext (by match a with | ⟨0, _⟩ => rfl | ⟨1, _⟩ => rfl)
theorem ridx50 (r : Fin 100000) (q k : Fin 128) : ridx_main_v50 (ix2 r q) k = ix2 k q :=
  funext fun a => Fin.ext (by match a with | ⟨0, _⟩ => rfl | ⟨1, _⟩ => rfl)
theorem idx52 (r : Fin 100000) (q : Fin 128) : idx_main_v52 (idx_main_v53 (ix2 r q)) = ix1 q :=
  funext fun a => Fin.ext (by match a with | ⟨0, _⟩ => rfl)

theorem lidx75 (r : Fin 100000) (q : Fin 128) (k : Fin 256) : lidx_main_v75 (ix2 r q) k = ix2 r k :=
  funext fun a => Fin.ext (by match a with | ⟨0, _⟩ => rfl | ⟨1, _⟩ => rfl)
theorem ridx75 (r : Fin 100000) (q : Fin 128) (k : Fin 256) : ridx_main_v75 (ix2 r q) k = ix2 k q :=
  funext fun a => Fin.ext (by match a with | ⟨0, _⟩ => rfl | ⟨1, _⟩ => rfl)
theorem idx76 (r : Fin 100000) (q : Fin 128) : idx_main_v76 (idx_main_v77 (ix2 r q)) = ix1 q :=
  funext fun a => Fin.ext (by match a with | ⟨0, _⟩ => rfl)
theorem lidx80 (r : Fin 100000) (q : Fin 64) (k : Fin 128) : lidx_main_v80 (ix2 r q) k = ix2 r k :=
  funext fun a => Fin.ext (by match a with | ⟨0, _⟩ => rfl | ⟨1, _⟩ => rfl)
theorem ridx80 (r : Fin 100000) (q : Fin 64) (k : Fin 128) : ridx_main_v80 (ix2 r q) k = ix2 k q :=
  funext fun a => Fin.ext (by match a with | ⟨0, _⟩ => rfl | ⟨1, _⟩ => rfl)
theorem idx81 (r : Fin 100000) (q : Fin 64) : idx_main_v81 (idx_main_v82 (ix2 r q)) = ix1 q :=
  funext fun a => Fin.ext (by match a with | ⟨0, _⟩ => rfl)
theorem lidx85 (r : Fin 100000) (z : Fin 1) (k : Fin 64) : lidx_main_v85 (ix2 r z) k = ix2 r k :=
  funext fun a => Fin.ext (by match a with | ⟨0, _⟩ => rfl | ⟨1, _⟩ => rfl)
theorem ridx85 (r : Fin 100000) (z : Fin 1) (k : Fin 64) : ridx_main_v85 (ix2 r z) k = ix2 k z :=
  funext fun a => Fin.ext (by match a with | ⟨0, _⟩ => rfl | ⟨1, _⟩ => rfl)
theorem idx86 (r : Fin 100000) (z : Fin 1) : idx_main_v86 (idx_main_v87 (ix2 r z)) = ix1 (0 : Fin 1) :=
  funext fun a => Fin.ext (by match a with | ⟨0, _⟩ => rfl)

/-- The first layer's output is the layer function of the mean-aggregated input and the input. -/
theorem layer1 (x0 : (⟨S100000x128, .f32⟩ : BufTy).Contents (Elt Ideal)) (x1 : (⟨S2x600000, .i32⟩ : BufTy).Contents (Elt Ideal))
    (x4 x5 : (⟨S128x128, .f32⟩ : BufTy).Contents (Elt Ideal)) (x6 : (⟨S128, .f32⟩ : BufTy).Contents (Elt Ideal)) :
    val_main_v29 (F := Ideal) x0 x1 x4 x5 x6 = Cert.Rgcn.layer (val_main_v22 (F := Ideal) x0 x1) x0 x4 x5 x6 := by
  funext i
  obtain ⟨r, q, rfl⟩ : ∃ (r : Fin 100000) (q : Fin 128), i = ix2 r q := ⟨i 0, i 1, eq_ix2 i⟩
  -- the clamp, the two sums, the bias and the zero word, each read at the index
  rw [val_main_v29_apply, val_main_v28_apply, val_main_v25_apply, val_main_v23_apply, val_main_v24_apply,
    val_main_v27_apply, val_main_v26_apply, val_main_call0_v0_apply, val_main_call0_cst_apply]
  simp only [lidx23, ridx23, lidx24, ridx24, idx26, Ideal.maximumf_def, Ideal.addf_def, Ideal.ofBits_def,
    Ideal.ofBits_zero_f32]
  rfl

/-- The second layer's output is the layer function of the mean-aggregated first layer and the first layer. -/
theorem layer2 (x0 : (⟨S100000x128, .f32⟩ : BufTy).Contents (Elt Ideal)) (x1 : (⟨S2x600000, .i32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal)) :
    val_main_v55 (F := Ideal) x0 x1 x4 x5 x6 x7 x8 x9
      = Cert.Rgcn.layer (val_main_v48 (F := Ideal) x0 x1 x4 x5 x6) (val_main_v29 (F := Ideal) x0 x1 x4 x5 x6) x7 x8 x9 := by
  funext i
  obtain ⟨r, q, rfl⟩ : ∃ (r : Fin 100000) (q : Fin 128), i = ix2 r q := ⟨i 0, i 1, eq_ix2 i⟩
  -- the same five steps as the first layer, one stage later
  rw [val_main_v55_apply, val_main_v54_apply, val_main_v51_apply, val_main_v49_apply, val_main_v50_apply,
    val_main_v53_apply, val_main_v52_apply, val_main_call1_v0_apply, val_main_call1_cst_apply]
  simp only [lidx49, ridx49, lidx50, ridx50, idx52, Ideal.maximumf_def, Ideal.addf_def, Ideal.ofBits_def,
    Ideal.ofBits_zero_f32]
  rfl

/-- The head's column of scores is the head function of the concatenated pair features. -/
theorem head (x0 : (⟨S100000x128, .f32⟩ : BufTy).Contents (Elt Ideal)) (x1 : (⟨S2x600000, .i32⟩ : BufTy).Contents (Elt Ideal))
    (x3 : (⟨S100000x2, .i32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S128x64, .f32⟩ : BufTy).Contents (Elt Ideal)) (x13 : (⟨S64, .f32⟩ : BufTy).Contents (Elt Ideal))
    (x14 : (⟨S64x1, .f32⟩ : BufTy).Contents (Elt Ideal)) (x15 : (⟨S1, .f32⟩ : BufTy).Contents (Elt Ideal)) :
    val_main_v94 (F := Ideal) x0 x1 x3 x4 x5 x6 x7 x8 x9 x10 x11 x12 x13 x14 x15
      = Cert.Rgcn.head (val_main_v74 (F := Ideal) x0 x1 x3 x4 x5 x6 x7 x8 x9) x10 x11 x12 x13 x14 x15 := by
  funext i
  obtain ⟨r, z, rfl⟩ : ∃ (r : Fin 100000) (z : Fin 1), i = ix2 r z := ⟨i 0, i 1, eq_ix2 i⟩
  obtain rfl : z = 0 := Subsingleton.elim z 0
  -- outermost first: the quotient 1 / (1 + exp (-z)), then the three affine maps with their clamps, the inner ones
  -- under the sums of the outer ones
  simp only [val_main_v94_apply, val_main_v93_apply, val_main_cst_15_apply, val_main_v92_apply, val_main_v91_apply,
    val_main_cst_14_apply, val_main_v90_apply, val_main_v89_apply, val_main_v88_apply, val_main_v85_apply,
    val_main_v87_apply, val_main_v86_apply, val_main_v84_apply, val_main_v83_apply, val_main_v80_apply,
    val_main_v82_apply, val_main_v81_apply, val_main_call3_v0_apply, val_main_call3_cst_apply, val_main_v79_apply,
    val_main_v78_apply, val_main_v75_apply, val_main_v77_apply, val_main_v76_apply, val_main_call2_v0_apply,
    val_main_call2_cst_apply,
    lidx85, ridx85, idx86, lidx80, ridx80, idx81, lidx75, ridx75, idx76,
    Ideal.hostDivf_def, Ideal.addf_def, Ideal.hostUnary_exp_def, Ideal.hostNegf_def, Ideal.negf_def,
    Ideal.maximumf_def, Ideal.ofBits_def, Ideal.ofBits_zero_f32, Cert.Rgcn.ofBits_one_f32, Cert.Rgcn.logistic_spelt]
  rfl

end Cert.ReferenceIdeal.Layers

end
-- ==== Proof.Exit0.lean ====
/-
  The first region leaves the reference's first-layer output in its output array: the region writes the layer
  function of the arrays it finds, those arrays are the reference's mean-aggregated input, the input, the weights and
  the bias, and the reference's first layer is the same layer function of them.
-/
import proofs.«168571_j66898410602822_1_alg».proof.Proof.Host0
import proofs.«168571_j66898410602822_1_alg».proof.Proof.Region0
import proofs.«168571_j66898410602822_1_alg».proof.Proof.RefLayers

noncomputable section

open scoped BigOperators

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- At the first region's exit its output array is the reference's first-layer output. -/
theorem exit0 (c : Dev nD) :
    W2 m ρ c (Proc.devRef .tc main_v26) = Cert.ReferenceIdeal.Read.val_main_v29 (F := Ideal) (a0 m c) (a1 m c) (a4 m c) (a5 m c) (a6 m c) :=
  calc W2 m ρ c (Proc.devRef .tc main_v26)
      = (dat0 (V1 m ρ) c).arrAt 5 cfg0.N := W2_arr m ρ c 5
    _ = Cert.Rgcn.layer (V1 m ρ c main_v24) (V1 m ρ c main_arg0) (V1 m ρ c main_arg4) (V1 m ρ c main_arg5)
          (Cert.Rgcn.row (V1 m ρ c main_v25)) := Cert.KernelIdeal.Region0.final (V1 m ρ) c
    _ = Cert.Rgcn.layer (Cert.ReferenceIdeal.Read.val_main_v22 (F := Ideal) (a0 m c) (a1 m c)) (a0 m c) (a4 m c) (a5 m c) (a6 m c) := by
          rw [entry0_mean, entry0_h, entry0_wrel, entry0_wroot, entry0_bias]
    _ = _ := (Cert.ReferenceIdeal.Layers.layer1 _ _ _ _ _).symm

end Cert.KernelIdeal.Host

end
-- ==== Proof.Host1.lean ====
/-
  What the second region finds in its input arrays: the first-layer output where the first region left it, and its
  mean aggregation, computed by the second host stretch exactly as the first (the same edge list, the same reciprocal
  column).
-/
import proofs.«168571_j66898410602822_1_alg».proof.Proof.Exit0

noncomputable section

open scoped BigOperators

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- Closes "no operation of this host stretch writes the buffer": every operation writes one buffer, and it is another. -/
local macro "stretch_keeps" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- A vector reshaped to a one-row matrix and read back along that row is the vector: entry `j` of the vector and entry
    `(0, j)` of the matrix have the same row-major position. -/
private theorem row_reshape {n : Nat} (x : (⟨1, ![n]⟩ : Shape).Idx → EReal)
    (h : (⟨1, ![n]⟩ : Shape).ShapeCasts (⟨2, ![1, n]⟩ : Shape)) :
    Cert.Rgcn.row (shapeCast (⟨2, ![1, n]⟩ : Shape) x h) = x := by
  funext j
  unfold Cert.Rgcn.row
  refine shapeCast_apply x h _ j ?_
  rw [Shape.rowMajor_val_one, Shape.rowMajor_val_two]
  show (j 0).val = 0 * n + (j 0).val
  omega

/-! ## The buffers the second host stretch reads, at the first region's exit

The first region's windows name none of them but its output, so each holds what the first host stretch left. -/

private theorem w2_src (c : Dev nD) : W2 m ρ c (Proc.devRef .tc main_v1) = Cert.ReferenceIdeal.Read.val_main_v1 (F := Ideal) (a1 m c) :=
  (W2_of_ne m ρ c main_v1 (by decide)).trans (w1_src m ρ c)
private theorem w2_dst (c : Dev nD) : W2 m ρ c (Proc.devRef .tc main_v3) = Cert.ReferenceIdeal.Read.val_main_v3 (F := Ideal) (a1 m c) :=
  (W2_of_ne m ρ c main_v3 (by decide)).trans (w1_dst m ρ c)
private theorem w2_inv (c : Dev nD) : W2 m ρ c (Proc.devRef .tc main_v12) = invCnt (a1 m c) :=
  (W2_of_ne m ρ c main_v12 (by decide)).trans (w1_inv m ρ c)

/-- A buffer the first region has no window on and the first host stretch does not write holds, at the first region's
    exit, what was launched. -/
private theorem w2_launched (c : Dev nD) (b : Ref sig .tc)
    (h2 : ∀ w, Pipeline.arrRef spec0 w ≠ b)
    (h1 : ∀ op ∈ (hostOps0 : List (HloOp τ sig (Elt Ideal))), Proc.devRef .tc b ∉ op.writes) :
    W2 m ρ c (Proc.devRef .tc b) = m ((c : Thread nD τ).loc b) :=
  (W2_of_ne m ρ c b h2).trans (StableHlo.after_of_forall_not_mem (b := Proc.devRef .tc b) _ _ h1)

/-- The same through the second host stretch, for a buffer it does not write either. -/
private theorem w3_launched (c : Dev nD) (b : Ref sig .tc)
    (h3 : ∀ op ∈ (hostOps1 : List (HloOp τ sig (Elt Ideal))), Proc.devRef .tc b ∉ op.writes)
    (h2 : ∀ w, Pipeline.arrRef spec0 w ≠ b)
    (h1 : ∀ op ∈ (hostOps0 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h3).trans (w2_launched m ρ c b h2 h1)

theorem entry1_mean (c : Dev nD) : V3 m ρ c main_v38 = Cert.ReferenceIdeal.Read.val_main_v48 (F := Ideal) (a0 m c) (a1 m c) (a4 m c) (a5 m c) (a6 m c) := by
  show StableHlo.after hostOps1 (W2 m ρ c) (Proc.devRef .tc main_v38) = _
  after_results_simp
  rw [w2_src, w2_dst, w2_inv, exit0]
  -- the scatter-add of the gathered first-layer rows, times the reciprocal column, is that scatter-add divided by
  -- `max count 1`; the reference spells the same gather, scatter-add and count out again for its second layer
  refine (mean_law _ (a1 m c)).trans ?_
  rfl
theorem entry1_h (c : Dev nD) : V3 m ρ c main_v26 = Cert.ReferenceIdeal.Read.val_main_v29 (F := Ideal) (a0 m c) (a1 m c) (a4 m c) (a5 m c) (a6 m c) := by
  exact (StableHlo.after_of_forall_not_mem (b := Proc.devRef .tc main_v26) _ _ (by stretch_keeps)).trans (exit0 m ρ c)
theorem entry1_wrel (c : Dev nD) : V3 m ρ c main_arg7 = a7 m c := by
  exact w3_launched m ρ c main_arg7 (by stretch_keeps) (by decide) (by stretch_keeps)
theorem entry1_wroot (c : Dev nD) : V3 m ρ c main_arg8 = a8 m c := by
  exact w3_launched m ρ c main_arg8 (by stretch_keeps) (by decide) (by stretch_keeps)
theorem entry1_bias (c : Dev nD) : Cert.Rgcn.row (V3 m ρ c main_v39) = a9 m c := by
  have h : W2 m ρ c (Proc.devRef .tc main_arg9) = a9 m c := w2_launched m ρ c main_arg9 (by decide) (by stretch_keeps)
  have e : (V3 m ρ c main_v39 : S1x128.Idx → EReal) = shapeCast _ (a9 m c) shapeCasts_S128_S1x128 := by
    show StableHlo.after hostOps1 (W2 m ρ c) (Proc.devRef .tc main_v39) = _
    after_results
    rw [h]
    rfl
  rw [e]
  exact row_reshape _ _

end Cert.KernelIdeal.Host

end
-- ==== Proof.Region1.lean ====
/-
  The second layer's region: as the first layer's, over its own input arrays (the mean-aggregated first-layer
  features, the first-layer features, the second layer's weights and bias row).
-/
import proofs.«168571_j66898410602822_1_alg».proof.Proof.Gen.KernelIdeal.Frame
import proofs.«168571_j66898410602822_1_alg».proof.Proof.Spec
import proofs.«168571_j66898410602822_1_alg».proof.Proof.LayerPayload

noncomputable section

open scoped BigOperators

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The body reads and writes every block from its corner: both offsets are zero. -/
theorem corner_offsets : (![0, 0] : Fin 2 → Nat) = fun _ => 0 := funext fun a => by fin_cases a <;> rfl

/-- Where each window's block sits at grid point `t`: the two first-layer feature arrays and the output move down one
    block of rows per point and stay in the one block of columns; the second layer's two weight matrices and its
    bias row are the one block of their whole array at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks the body sees at a point, and the arrays they are cut from -/

/-- The 5000 rows of mean-aggregated first-layer features at point `t`. -/
abbrev aggBlk (c : Dev nD) (t : Fin cfg1.N) : Vec Ideal S5000x128 .f32 := iblk1 V c 0 t
/-- The 5000 rows of first-layer features at point `t`. -/
abbrev hidBlk (c : Dev nD) (t : Fin cfg1.N) : Vec Ideal S5000x128 .f32 := iblk1 V c 1 t
/-- The second layer's relation weights as the body sees them at point `t`. -/
abbrev relBlk (c : Dev nD) (t : Fin cfg1.N) : Vec Ideal S128x128 .f32 := iblk1 V c 2 t
/-- The second layer's root weights as the body sees them at point `t`. -/
abbrev rootBlk (c : Dev nD) (t : Fin cfg1.N) : Vec Ideal S128x128 .f32 := iblk1 V c 3 t
/-- The second layer's bias row as the body sees it at point `t`. -/
abbrev biasBlk (c : Dev nD) (t : Fin cfg1.N) : Vec Ideal S1x128 .f32 := iblk1 V c 4 t

/-- The mean-aggregated first-layer features, all 100000 rows. -/
abbrev aggArr (c : Dev nD) : S100000x128.Idx → EReal := V c main_v38
/-- The first-layer features, all 100000 rows. -/
abbrev hidArr (c : Dev nD) : S100000x128.Idx → EReal := V c main_v26
/-- The second layer's relation weights. -/
abbrev relArr (c : Dev nD) : S128x128.Idx → EReal := V c main_arg7
/-- The second layer's root weights. -/
abbrev rootArr (c : Dev nD) : S128x128.Idx → EReal := V c main_arg8
/-- The second layer's bias, as a one-row matrix. -/
abbrev biasArr (c : Dev nD) : S1x128.Idx → EReal := V c main_v39

/-! ## Each block read where it lies in its array

An entry of a block sits in the array, on each axis, at the block's index times the block's extent plus the entry's
own coordinate. -/

/-- Row `p` of the aggregated block at point `t` is row `5000 t + p` of the aggregated first-layer features. -/
theorem aggBlk_apply (c : Dev nD) (t : Fin cfg1.N) (p : Fin 5000) (k : Fin 128) (r : Fin 100000)
    (hr : r.val = 5000 * t.val + p.val) :
    aggBlk V c t (ix2 p k) = aggArr V c (ix2 r k) := by
  obtain ⟨e0, e1, -⟩ := block_indices t
  show V c main_v38 (((cfg1.win 0).blk t).view.emb (ix2 p k)) = V c main_v38 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the first-layer block at point `t` is row `5000 t + p` of the first-layer features. -/
theorem hidBlk_apply (c : Dev nD) (t : Fin cfg1.N) (p : Fin 5000) (k : Fin 128) (r : Fin 100000)
    (hr : r.val = 5000 * t.val + p.val) :
    hidBlk V c t (ix2 p k) = hidArr V c (ix2 r k) := by
  obtain ⟨-, -, e0, e1, -⟩ := block_indices t
  show V c main_v26 (((cfg1.win 1).blk t).view.emb (ix2 p k)) = V c main_v26 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The relation-weight block is the whole matrix at every point. -/
theorem relBlk_apply (c : Dev nD) (t : Fin cfg1.N) (k q : Fin 128) :
    relBlk V c t (ix2 k q) = relArr V c (ix2 k q) := by
  obtain ⟨-, -, -, -, e0, e1, -⟩ := block_indices t
  show V c main_arg7 (((cfg1.win 2).blk t).view.emb (ix2 k q)) = V c main_arg7 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The root-weight block is the whole matrix at every point. -/
theorem rootBlk_apply (c : Dev nD) (t : Fin cfg1.N) (k q : Fin 128) :
    rootBlk V c t (ix2 k q) = rootArr V c (ix2 k q) := by
  obtain ⟨-, -, -, -, -, -, e0, e1, -⟩ := block_indices t
  show V c main_arg8 (((cfg1.win 3).blk t).view.emb (ix2 k q)) = V c main_arg8 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias block is the whole one-row matrix at every point. -/
theorem biasBlk_apply (c : Dev nD) (t : Fin cfg1.N) (q : Fin 128) :
    biasBlk V c t (ix2 (0 : Fin 1) q) = biasArr V c (ix2 (0 : Fin 1) q) := by
  obtain ⟨-, -, -, -, -, -, -, -, e0, e1, -⟩ := block_indices t
  show V c main_v39 (((cfg1.win 4).blk t).view.emb (ix2 (0 : Fin 1) q)) = V c main_v39 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Entry `(p, q)` of the output block at point `t` is entry `(5000 t + p, q)` of the output array. -/
theorem outBlk_emb (t : Fin cfg1.N) (p : Fin 5000) (q : Fin 128) (r : Fin 100000)
    (hr : r.val = 5000 * t.val + p.val) :
    ((cfg1.win 5).blk t).view.emb (ix2 p q) = (ix2 r q : S100000x128.Idx) := by
  obtain ⟨-, -, -, -, -, -, -, -, -, -, e0, e1⟩ := block_indices t
  refine funext fun a => Fin.ext ?_
  match a with
  | ⟨0, _⟩ => show win1_5.index t (0 : Fin 2) * 5000 + 1 * p.val = r.val; omega
  | ⟨1, _⟩ => show win1_5.index t (1 : Fin 2) * 128 + 1 * q.val = q.val; omega

/-! ## What a point writes back -/

/-- Point `t` writes back block `t` of the layer function of the input arrays: entry `(p, q)` of what the body leaves
    is the layer's formula on row `p` of the two feature blocks, which is row `5000 t + p` of the two feature arrays,
    against the whole weight matrices and bias row. -/
theorem flushed_eq (c : Dev nD) (t : Fin cfg1.N) :
    (dat1 V c).flushed 5 t = ((cfg1.win 5).blk t).view.read (Elt Ideal)
      (Cert.Rgcn.layer (V c main_v38) (V c main_v26) (V c main_arg7) (V c main_arg8) (Cert.Rgcn.row (V c main_v39))) := by
  show (cfg1.win 5).cut (grid1.coords t) ((dat1 V c).after 5 t) = _
  rw [after1_5]
  unfold out1_5
  rw [View.canon_unit_zero corner_offsets]
  simp only [View.ld_unit_zero (S := S5000x128) corner_offsets, View.ld_unit_zero (S := S128x128) corner_offsets,
    View.ld_unit_zero (S := S1x128) corner_offsets]
  funext j
  obtain ⟨p, q, rfl⟩ : ∃ (p : Fin 5000) (q : Fin 128), j = ix2 p q := ⟨j 0, j 1, eq_ix2 j⟩
  have hN : cfg1.N = 20 := N_1
  have ht : t.val < cfg1.N := t.isLt
  obtain ⟨r, hr⟩ : ∃ r : Fin 100000, r.val = 5000 * t.val + p.val := ⟨⟨5000 * t.val + p.val, by omega⟩, rfl⟩
  show k1_pay1 (F := Ideal) (aggBlk V c t) (hidBlk V c t) (relBlk V c t) (rootBlk V c t) (biasBlk V c t) (ix2 p q)
    = Cert.Rgcn.layer (V c main_v38) (V c main_v26) (V c main_arg7) (V c main_arg8) (Cert.Rgcn.row (V c main_v39))
        (((cfg1.win 5).blk t).view.emb (ix2 p q))
  rw [LayerPayload.pay1_apply, outBlk_emb t p q r hr]
  show _ = max (((∑ k : Fin 128, aggArr V c (ix2 r k) * relArr V c (ix2 k q))
      + ∑ k : Fin 128, hidArr V c (ix2 r k) * rootArr V c (ix2 k q)) + biasArr V c (ix2 (0 : Fin 1) q)) 0
  simp only [aggBlk_apply V c t p _ r hr, hidBlk_apply V c t p _ r hr, relBlk_apply V c t, rootBlk_apply V c t,
    biasBlk_apply V c t]

/-! ## The blocks tile the output array -/

/-- An entry of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Row `r` of the output array is written back by point `r / 5000`. -/
theorem cover (i : S100000x128.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  let t : Fin cfg1.N := ⟨(i 0).val / 5000, by omega⟩
  have htv : t.val = (i 0).val / 5000 := rfl
  obtain ⟨-, -, -, -, -, -, -, -, -, -, e0, e1⟩ := block_indices t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after its last point, from any entry contents `V`. -/
theorem final (c : Dev nD) :
    (dat1 (F := Ideal) V c).arrAt 5 cfg1.N
      = Cert.Rgcn.layer (V c main_v38) (V c main_v26) (V c main_arg7) (V c main_arg8) (Cert.Rgcn.row (V c main_v39)) :=
  (dat1 V c).arrAt_eq_of_cover 5 _ (fun t _ => flushed_eq V c t) cover

end Cert.KernelIdeal.Region1

end
-- ==== Proof.Exit1.lean ====
/-
  The second region leaves the reference's second-layer output in its output array, by the same three steps as the
  first: the region's layer function, the arrays it finds, the reference's second layer.
-/
import proofs.«168571_j66898410602822_1_alg».proof.Proof.Host1
import proofs.«168571_j66898410602822_1_alg».proof.Proof.Region1

noncomputable section

open scoped BigOperators

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- At the second region's exit its output array is the reference's second-layer output. -/
theorem exit1 (c : Dev nD) :
    W4 m ρ c (Proc.devRef .tc main_v40) = Cert.ReferenceIdeal.Read.val_main_v55 (F := Ideal) (a0 m c) (a1 m c) (a4 m c) (a5 m c) (a6 m c) (a7 m c) (a8 m c) (a9 m c) :=
  calc W4 m ρ c (Proc.devRef .tc main_v40)
      = (dat1 (V3 m ρ) c).arrAt 5 cfg1.N := W4_arr m ρ c 5
    _ = Cert.Rgcn.layer (V3 m ρ c main_v38) (V3 m ρ c main_v26) (V3 m ρ c main_arg7) (V3 m ρ c main_arg8)
          (Cert.Rgcn.row (V3 m ρ c main_v39)) := Cert.KernelIdeal.Region1.final (V3 m ρ) c
    _ = Cert.Rgcn.layer (Cert.ReferenceIdeal.Read.val_main_v48 (F := Ideal) (a0 m c) (a1 m c) (a4 m c) (a5 m c) (a6 m c))
          (Cert.ReferenceIdeal.Read.val_main_v29 (F := Ideal) (a0 m c) (a1 m c) (a4 m c) (a5 m c) (a6 m c)) (a7 m c) (a8 m c) (a9 m c) := by
          rw [entry1_mean, entry1_h, entry1_wrel, entry1_wroot, entry1_bias]
    _ = _ := (Cert.ReferenceIdeal.Layers.layer2 _ _ _ _ _ _ _ _).symm

end Cert.KernelIdeal.Host

end
-- ==== Proof.Host2.lean ====
/-
  What the head's region finds in its input arrays: the pair features (the second-layer rows at each pair's two
  endpoints, side by side), gathered by the third host stretch from the array the second region left, and the head's
  weights and bias rows.
-/
import proofs.«168571_j66898410602822_1_alg».proof.Proof.Exit1

noncomputable section

open scoped BigOperators

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- Closes "no operation of this host stretch writes the buffer": every operation writes one buffer, and it is another. -/
local macro "stretch_keeps" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- A vector reshaped to a one-row matrix and read back along that row is the vector: entry `j` of the vector and entry
    `(0, j)` of the matrix have the same row-major position. -/
private theorem row_reshape {n : Nat} (x : (⟨1, ![n]⟩ : Shape).Idx → EReal)
    (h : (⟨1, ![n]⟩ : Shape).ShapeCasts (⟨2, ![1, n]⟩ : Shape)) :
    Cert.Rgcn.row (shapeCast (⟨2, ![1, n]⟩ : Shape) x h) = x := by
  funext j
  unfold Cert.Rgcn.row
  refine shapeCast_apply x h _ j ?_
  rw [Shape.rowMajor_val_one, Shape.rowMajor_val_two]
  show (j 0).val = 0 * n + (j 0).val
  omega

/-- A buffer that neither of the first two regions has a window on and neither of the first two host stretches writes
    holds, at the second region's exit, what was launched: walk back through the second region, the second stretch, the
    first region and the first stretch. -/
private theorem w4_launched (c : Dev nD) (b : Ref sig .tc)
    (h4 : ∀ w, Pipeline.arrRef spec1 w ≠ b)
    (h3 : ∀ op ∈ (hostOps1 : List (HloOp τ sig (Elt Ideal))), Proc.devRef .tc b ∉ op.writes)
    (h2 : ∀ w, Pipeline.arrRef spec0 w ≠ b)
    (h1 : ∀ op ∈ (hostOps0 : List (HloOp τ sig (Elt Ideal))), Proc.devRef .tc b ∉ op.writes) :
    W4 m ρ c (Proc.devRef .tc b) = m ((c : Thread nD τ).loc b) :=
  (W4_of_ne m ρ c b h4).trans ((StableHlo.after_of_forall_not_mem (b := Proc.devRef .tc b) _ _ h3).trans
    ((W2_of_ne m ρ c b h2).trans (StableHlo.after_of_forall_not_mem (b := Proc.devRef .tc b) _ _ h1)))

/-- The same through the third host stretch, for a buffer it does not write either. -/
private theorem w5_launched (c : Dev nD) (b : Ref sig .tc)
    (h5 : ∀ op ∈ (hostOps2 : List (HloOp τ sig (Elt Ideal))), Proc.devRef .tc b ∉ op.writes)
    (h4 : ∀ w, Pipeline.arrRef spec1 w ≠ b)
    (h3 : ∀ op ∈ (hostOps1 : List (HloOp τ sig (Elt Ideal))), Proc.devRef .tc b ∉ op.writes)
    (h2 : ∀ w, Pipeline.arrRef spec0 w ≠ b)
    (h1 : ∀ op ∈ (hostOps0 : List (HloOp τ sig (Elt Ideal))), Proc.devRef .tc b ∉ op.writes) :
    W5 m ρ c (Proc.devRef .tc b) = m ((c : Thread nD τ).loc b) :=
  (StableHlo.after_of_forall_not_mem (b := Proc.devRef .tc b) _ _ h5).trans (w4_launched m ρ c b h4 h3 h2 h1)

/-- Joining two arrays side by side respects equality of each. -/
private theorem join_congr (a a' b b' : S100000x128.Idx → EReal) (ha : a = a') (hb : b = b') :
    concatenate S100000x256 1 [⟨S100000x128, a⟩, ⟨S100000x128, b⟩] concatenates_S100000x128_S100000x128_S100000x256_d1
      = concatenate S100000x256 1 [⟨S100000x128, a'⟩, ⟨S100000x128, b'⟩] concatenates_S100000x128_S100000x128_S100000x256_d1 := by
  subst ha; subst hb; rfl

theorem entry2_e (c : Dev nD) : V5 m ρ c main_v59 = Cert.ReferenceIdeal.Read.val_main_v74 (F := Ideal) (a0 m c) (a1 m c) (a3 m c) (a4 m c) (a5 m c) (a6 m c) (a7 m c) (a8 m c) (a9 m c) := by
  have h3 : W4 m ρ c (Proc.devRef .tc main_arg3) = a3 m c :=
    w4_launched m ρ c main_arg3 (by decide) (by stretch_keeps) (by decide) (by stretch_keeps)
  show StableHlo.after hostOps2 (W4 m ρ c) (Proc.devRef .tc main_v59) = _
  after_results_simp
  -- the two halves are the reference's two gathers of the second-layer output, at each pair's first and second endpoint
  refine (join_congr _
    (Cert.ReferenceIdeal.Read.val_main_v64 (F := Ideal) (a0 m c) (a1 m c) (a3 m c) (a4 m c) (a5 m c) (a6 m c) (a7 m c) (a8 m c) (a9 m c)) _
    (Cert.ReferenceIdeal.Read.val_main_v73 (F := Ideal) (a0 m c) (a1 m c) (a3 m c) (a4 m c) (a5 m c) (a6 m c) (a7 m c) (a8 m c) (a9 m c)) ?_ ?_).trans ?_
  · after_results_simp
    rw [h3, exit1]
    rfl
  · after_results_simp
    rw [h3, exit1]
    rfl
  · rfl
theorem entry2_wp1 (c : Dev nD) : V5 m ρ c main_arg10 = a10 m c := by
  exact w5_launched m ρ c main_arg10 (by stretch_keeps) (by decide) (by stretch_keeps) (by decide) (by stretch_keeps)
theorem entry2_bp1 (c : Dev nD) : Cert.Rgcn.row (V5 m ρ c main_v60) = a11 m c := by
  have h : W4 m ρ c (Proc.devRef .tc main_arg11) = a11 m c :=
    w4_launched m ρ c main_arg11 (by decide) (by stretch_keeps) (by decide) (by stretch_keeps)
  have e : (V5 m ρ c main_v60 : S1x128.Idx → EReal) = shapeCast _ (a11 m c) shapeCasts_S128_S1x128 := by
    show StableHlo.after hostOps2 (W4 m ρ c) (Proc.devRef .tc main_v60) = _
    after_results_simp
    rw [h]
    rfl
  rw [e]
  exact row_reshape _ _
theorem entry2_wp2 (c : Dev nD) : V5 m ρ c main_arg12 = a12 m c := by
  exact w5_launched m ρ c main_arg12 (by stretch_keeps) (by decide) (by stretch_keeps) (by decide) (by stretch_keeps)
theorem entry2_bp2 (c : Dev nD) : Cert.Rgcn.row (V5 m ρ c main_v61) = a13 m c := by
  have h : W4 m ρ c (Proc.devRef .tc main_arg13) = a13 m c :=
    w4_launched m ρ c main_arg13 (by decide) (by stretch_keeps) (by decide) (by stretch_keeps)
  have e : (V5 m ρ c main_v61 : S1x64.Idx → EReal) = shapeCast _ (a13 m c) shapeCasts_S64_S1x64 := by
    show StableHlo.after hostOps2 (W4 m ρ c) (Proc.devRef .tc main_v61) = _
    after_results_simp
    rw [h]
    rfl
  rw [e]
  exact row_reshape _ _
theorem entry2_wp3 (c : Dev nD) : V5 m ρ c main_arg14 = a14 m c := by
  exact w5_launched m ρ c main_arg14 (by stretch_keeps) (by decide) (by stretch_keeps) (by decide) (by stretch_keeps)
theorem entry2_bp3 (c : Dev nD) : Cert.Rgcn.row (V5 m ρ c main_v62) = a15 m c := by
  have h : W4 m ρ c (Proc.devRef .tc main_arg15) = a15 m c :=
    w4_launched m ρ c main_arg15 (by decide) (by stretch_keeps) (by decide) (by stretch_keeps)
  have e : (V5 m ρ c main_v62 : S1x1.Idx → EReal) = shapeCast _ (a15 m c) shapeCasts_S1_S1x1 := by
    show StableHlo.after hostOps2 (W4 m ρ c) (Proc.devRef .tc main_v62) = _
    after_results_simp
    rw [h]
    rfl
  rw [e]
  exact row_reshape _ _

end Cert.KernelIdeal.Host

end
-- ==== Proof.HeadPayload.lean ====
/-
  The link head's body at one row of its block: three affine maps (256 → 128 → 64 → 1), each a product into a zero
  accumulator plus a bias row, clamped at zero after the first two, and the logistic function after the third.
-/
import proofs.«168571_j66898410602822_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HeadPayload

open Cert.KernelIdeal Cert.KernelIdeal.Gen Idealize.ShloMosaic Idealize.ShloMosaic.ValueIdx

/-! ## The first product (256 contracted) -/

/-- The left operand's row is the output's row. -/
theorem lhs1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column is the contracted coordinate. -/
theorem lhs1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row is the contracted coordinate. -/
theorem rhs1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column is the output's column. -/
theorem rhs1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into a zero accumulator, read at `(p, c)`, is the sum over the 256 contracted coordinates. -/
theorem mm1_apply (a : FVec Ideal S5000x256 .bf16) (b : FVec Ideal S256x128 .bf16) (p : Fin 5000) (c : Fin 128) :
    matmul dot_S5000x256_S256x128_S5000x128_1_0_0_1_n_n none a b (constant (F := Ideal) S5000x128 .f32 0x00000000#32) (ix2 p c)
      = ∑ k : Fin 256, a (ix2 p k) * b (ix2 k c) := by
  show FloatOps.matmul dot_S5000x256_S256x128_S5000x128_1_0_0_1_n_n none a b (constant (F := Ideal) S5000x128 .f32 0x00000000#32) (ix2 p c) = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p c) ((ValueIdx.contrEquiv1 dot_S5000x256_S256x128_S5000x128_1_0_0_1_n_n 256 rfl rfl).symm k) = ix2 p k := funext fun ax => Fin.ext (by
    match ax with
    | ⟨0, _⟩ => exact lhs1_0 _ _
    | ⟨1, _⟩ => exact (lhs1_1 _ _).trans hk)
  have er : dot_S5000x256_S256x128_S5000x128_1_0_0_1_n_n.rhsIdx (ix2 p c) ((ValueIdx.contrEquiv1 dot_S5000x256_S256x128_S5000x128_1_0_0_1_n_n 256 rfl rfl).symm k) = ix2 k c := funext fun ax => Fin.ext (by
    match ax with
    | ⟨0, _⟩ => exact (rhs1_0 _ _).trans hk
    | ⟨1, _⟩ => exact rhs1_1 _ _)
  rw [el, er]

/-! ## The second product (128 contracted) -/

/-- The left operand's row is the output's row. -/
theorem lhs2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted coordinate. -/
theorem lhs2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted coordinate. -/
theorem rhs2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, read at `(p, c)`, is the sum over the 128 contracted coordinates. -/
theorem mm2_apply (a : FVec Ideal S5000x128 .bf16) (b : FVec Ideal S128x64 .bf16) (p : Fin 5000) (c : Fin 64) :
    matmul dot_S5000x128_S128x64_S5000x64_1_0_0_1_n_n none a b (constant (F := Ideal) S5000x64 .f32 0x00000000#32) (ix2 p c)
      = ∑ k : Fin 128, a (ix2 p k) * b (ix2 k c) := by
  show FloatOps.matmul dot_S5000x128_S128x64_S5000x64_1_0_0_1_n_n none a b (constant (F := Ideal) S5000x64 .f32 0x00000000#32) (ix2 p c) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p c) ((ValueIdx.contrEquiv1 dot_S5000x128_S128x64_S5000x64_1_0_0_1_n_n 128 rfl rfl).symm k) = ix2 p k := funext fun ax => Fin.ext (by
    match ax with
    | ⟨0, _⟩ => exact lhs2_0 _ _
    | ⟨1, _⟩ => exact (lhs2_1 _ _).trans hk)
  have er : dot_S5000x128_S128x64_S5000x64_1_0_0_1_n_n.rhsIdx (ix2 p c) ((ValueIdx.contrEquiv1 dot_S5000x128_S128x64_S5000x64_1_0_0_1_n_n 128 rfl rfl).symm k) = ix2 k c := funext fun ax => Fin.ext (by
    match ax with
    | ⟨0, _⟩ => exact (rhs2_0 _ _).trans hk
    | ⟨1, _⟩ => exact rhs2_1 _ _)
  rw [el, er]

/-! ## The third product (64 contracted) -/

/-- The left operand's row is the output's row. -/
theorem lhs3_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- The left operand's column is the contracted coordinate. -/
theorem lhs3_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
/-- The right operand's row is the contracted coordinate. -/
theorem rhs3_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
/-- The right operand's column is the output's column. -/
theorem rhs3_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The product into a zero accumulator, read at `(p, c)`, is the sum over the 64 contracted coordinates. -/
theorem mm3_apply (a : FVec Ideal S5000x64 .bf16) (b : FVec Ideal S64x1 .bf16) (p : Fin 5000) (c : Fin 1) :
    matmul dot_S5000x64_S64x1_S5000x1_1_0_0_1_n_n none a b (constant (F := Ideal) S5000x1 .f32 0x00000000#32) (ix2 p c)
      = ∑ k : Fin 64, a (ix2 p k) * b (ix2 k c) := by
  show FloatOps.matmul dot_S5000x64_S64x1_S5000x1_1_0_0_1_n_n none a b (constant (F := Ideal) S5000x1 .f32 0x00000000#32) (ix2 p c) = _
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p c) ((ValueIdx.contrEquiv1 dot_S5000x64_S64x1_S5000x1_1_0_0_1_n_n 64 rfl rfl).symm k) = ix2 p k := funext fun ax => Fin.ext (by
    match ax with
    | ⟨0, _⟩ => exact lhs3_0 _ _
    | ⟨1, _⟩ => exact (lhs3_1 _ _).trans hk)
  have er : dot_S5000x64_S64x1_S5000x1_1_0_0_1_n_n.rhsIdx (ix2 p c) ((ValueIdx.contrEquiv1 dot_S5000x64_S64x1_S5000x1_1_0_0_1_n_n 64 rfl rfl).symm k) = ix2 k c := funext fun ax => Fin.ext (by
    match ax with
    | ⟨0, _⟩ => exact (rhs3_0 _ _).trans hk
    | ⟨1, _⟩ => exact rhs3_1 _ _)
  rw [el, er]

/-! ## The body -/

/-- The head's body at row `p` of its block. -/
theorem pay2_apply (v0 : Vec Ideal S5000x256 .f32) (v3 : Vec Ideal S256x128 .f32) (v6 : Vec Ideal S1x128 .f32)
    (v13 : Vec Ideal S128x64 .f32) (v16 : Vec Ideal S1x64 .f32) (v23 : Vec Ideal S64x1 .f32) (v26 : Vec Ideal S1x1 .f32)
    (p : Fin 5000) :
    k2_pay1 (F := Ideal) v0 v3 v6 v13 v16 v23 v26 (ix2 p (0 : Fin 1))
      = Ideal.logistic ((∑ k3 : Fin 64,
            max ((∑ k2 : Fin 128,
                max ((∑ k1 : Fin 256, v0 (ix2 p k1) * v3 (ix2 k1 k2)) + v6 (ix2 (0 : Fin 1) k2)) 0 * v13 (ix2 k2 k3))
              + v16 (ix2 (0 : Fin 1) k3)) 0 * v23 (ix2 k3 (0 : Fin 1)))
          + v26 (ix2 (0 : Fin 1) (0 : Fin 1))) := by
  unfold k2_pay1
  simp only [shapeCast_self]
  -- the third affine map and the logistic function, at row `p`
  show Ideal.logistic (matmul dot_S5000x64_S64x1_S5000x1_1_0_0_1_n_n none _ _ (constant (F := Ideal) S5000x1 .f32 0x00000000#32) (ix2 p (0 : Fin 1))
      + broadcastTo S5000x1 v26 broadcasts_S1x1_S5000x1 (ix2 p (0 : Fin 1))) = _
  rw [mm3_apply, broadcastTo_1b_ab_apply]
  refine congrArg Ideal.logistic (congrArg (· + v26 (ix2 (0 : Fin 1) (0 : Fin 1))) (Finset.sum_congr rfl fun k3 _ => ?_))
  -- the second affine map and its clamp, at `(p, k3)`
  show max (matmul dot_S5000x128_S128x64_S5000x64_1_0_0_1_n_n none _ _ (constant (F := Ideal) S5000x64 .f32 0x00000000#32) (ix2 p k3)
      + broadcastTo S5000x64 v16 broadcasts_S1x64_S5000x64 (ix2 p k3)) (Ideal.ofBits .f32 0x00000000#32) * v23 (ix2 k3 (0 : Fin 1)) = _
  rw [mm2_apply, broadcastTo_1b_ab_apply, Ideal.ofBits_zero_f32]
  refine congrArg (fun t => max (t + v16 (ix2 (0 : Fin 1) k3)) 0 * v23 (ix2 k3 (0 : Fin 1))) (Finset.sum_congr rfl fun k2 _ => ?_)
  -- the first affine map and its clamp, at `(p, k2)`
  show max (matmul dot_S5000x256_S256x128_S5000x128_1_0_0_1_n_n none _ _ (constant (F := Ideal) S5000x128 .f32 0x00000000#32) (ix2 p k2)
      + broadcastTo S5000x128 v6 broadcasts_S1x128_S5000x128 (ix2 p k2)) (Ideal.ofBits .f32 0x00000000#32) * v13 (ix2 k2 k3) = _
  rw [mm1_apply, broadcastTo_1b_ab_apply, Ideal.ofBits_zero_f32]
  rfl

end Cert.KernelIdeal.HeadPayload

end
-- ==== Proof.Region2.lean ====
/-
  The link head's region: the grid's twenty points each write one block of 5000 scores, and block `t` holds the head
  function of rows `5000 t … 5000 t + 4999` of the pair-feature array (the weights and bias rows are the same whole
  blocks at every point). The blocks tile the output column, so it ends holding the head function of the arrays as the
  region finds them.
-/
import proofs.«168571_j66898410602822_1_alg».proof.Proof.Gen.KernelIdeal.Frame
import proofs.«168571_j66898410602822_1_alg».proof.Proof.Spec
import proofs.«168571_j66898410602822_1_alg».proof.Proof.HeadPayload

noncomputable section

open scoped BigOperators

namespace Cert.KernelIdeal.Region2

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- A block read through the zero offset vector. -/
theorem zero_offsets : (![0, 0] : Fin 2 → Nat) = fun _ => 0 := funext fun a => by
  match a with | ⟨0, _⟩ => rfl | ⟨1, _⟩ => rfl

/-! ## The arrays the region finds and the blocks a point reads, at their literal types -/

/-- The pair features, one row of 256 per candidate pair. -/
abbrev pairArr (c : Dev nD) : S100000x256.Idx → EReal := V c main_v59
/-- The first affine map's weights. -/
abbrev w1Arr (c : Dev nD) : S256x128.Idx → EReal := V c main_arg10
/-- The first bias, as a one-row matrix. -/
abbrev b1Arr (c : Dev nD) : S1x128.Idx → EReal := V c main_v60
/-- The second affine map's weights. -/
abbrev w2Arr (c : Dev nD) : S128x64.Idx → EReal := V c main_arg12
/-- The second bias, as a one-row matrix. -/
abbrev b2Arr (c : Dev nD) : S1x64.Idx → EReal := V c main_v61
/-- The third affine map's weights. -/
abbrev w3Arr (c : Dev nD) : S64x1.Idx → EReal := V c main_arg14
/-- The third bias, as a one-by-one matrix. -/
abbrev b3Arr (c : Dev nD) : S1x1.Idx → EReal := V c main_v62

/-- Point `t`'s block of pair features. -/
abbrev pairBlk (c : Dev nD) (t : Fin cfg2.N) : Vec Ideal S5000x256 .f32 := iblk2 V c 0 t
/-- The first weights as point `t` reads them. -/
abbrev w1Blk (c : Dev nD) (t : Fin cfg2.N) : Vec Ideal S256x128 .f32 := iblk2 V c 1 t
/-- The first bias row as point `t` reads it. -/
abbrev b1Blk (c : Dev nD) (t : Fin cfg2.N) : Vec Ideal S1x128 .f32 := iblk2 V c 2 t
/-- The second weights as point `t` reads them. -/
abbrev w2Blk (c : Dev nD) (t : Fin cfg2.N) : Vec Ideal S128x64 .f32 := iblk2 V c 3 t
/-- The second bias row as point `t` reads it. -/
abbrev b2Blk (c : Dev nD) (t : Fin cfg2.N) : Vec Ideal S1x64 .f32 := iblk2 V c 4 t
/-- The third weights as point `t` reads them. -/
abbrev w3Blk (c : Dev nD) (t : Fin cfg2.N) : Vec Ideal S64x1 .f32 := iblk2 V c 5 t
/-- The third bias as point `t` reads it. -/
abbrev b3Blk (c : Dev nD) (t : Fin cfg2.N) : Vec Ideal S1x1 .f32 := iblk2 V c 6 t

/-! ## Where each window's block sits -/

/-- The index maps over the twenty points: the pair features and the scores move one block of rows per point, the
    weights and biases stay at their one whole block. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of point `t`'s pair-feature block is row `5000 t + p` of the array. -/
theorem pairBlk_apply (c : Dev nD) (t : Fin cfg2.N) (p : Fin 5000) (k : Fin 256) (r : Fin 100000)
    (hr : r.val = 5000 * t.val + p.val) :
    pairBlk V c t (ix2 p k) = pairArr V c (ix2 r k) := by
  obtain ⟨e0, e1, -⟩ := block_positions t
  unfold pairBlk iblk2
  rw [View.read_apply]
  show V c main_v59 _ = V c main_v59 _
  refine congrArg _ ?_
  funext a
  apply Fin.ext
  match a with
  | ⟨0, _⟩ => show win2_0.index t (0 : Fin 2) * 5000 + 1 * p.val = r.val; rw [e0, hr]; omega
  | ⟨1, _⟩ => show win2_0.index t (1 : Fin 2) * 256 + 1 * k.val = k.val; rw [e1]; omega

/-- The first weights' one block is the whole array. -/
theorem w1Blk_apply (c : Dev nD) (t : Fin cfg2.N) (k1 : Fin 256) (k2 : Fin 128) :
    w1Blk V c t (ix2 k1 k2) = w1Arr V c (ix2 k1 k2) := by
  obtain ⟨-, -, e0, e1, -⟩ := block_positions t
  unfold w1Blk iblk2
  rw [View.read_apply]
  show V c main_arg10 _ = V c main_arg10 _
  refine congrArg _ ?_
  funext a
  apply Fin.ext
  match a with
  | ⟨0, _⟩ => show win2_1.index t (0 : Fin 2) * 256 + 1 * k1.val = k1.val; rw [e0]; omega
  | ⟨1, _⟩ => show win2_1.index t (1 : Fin 2) * 128 + 1 * k2.val = k2.val; rw [e1]; omega

/-- The first bias row's one block is the whole row. -/
theorem b1Blk_apply (c : Dev nD) (t : Fin cfg2.N) (z : Fin 1) (k2 : Fin 128) :
    b1Blk V c t (ix2 z k2) = b1Arr V c (ix2 z k2) := by
  obtain ⟨-, -, -, -, e0, e1, -⟩ := block_positions t
  unfold b1Blk iblk2
  rw [View.read_apply]
  show V c main_v60 _ = V c main_v60 _
  refine congrArg _ ?_
  funext a
  apply Fin.ext
  match a with
  | ⟨0, _⟩ => show win2_2.index t (0 : Fin 2) * 1 + 1 * z.val = z.val; rw [e0]; omega
  | ⟨1, _⟩ => show win2_2.index t (1 : Fin 2) * 128 + 1 * k2.val = k2.val; rw [e1]; omega

/-- The second weights' one block is the whole array. -/
theorem w2Blk_apply (c : Dev nD) (t : Fin cfg2.N) (k2 : Fin 128) (k3 : Fin 64) :
    w2Blk V c t (ix2 k2 k3) = w2Arr V c (ix2 k2 k3) := by
  obtain ⟨-, -, -, -, -, -, e0, e1, -⟩ := block_positions t
  unfold w2Blk iblk2
  rw [View.read_apply]
  show V c main_arg12 _ = V c main_arg12 _
  refine congrArg _ ?_
  funext a
  apply Fin.ext
  match a with
  | ⟨0, _⟩ => show win2_3.index t (0 : Fin 2) * 128 + 1 * k2.val = k2.val; rw [e0]; omega
  | ⟨1, _⟩ => show win2_3.index t (1 : Fin 2) * 64 + 1 * k3.val = k3.val; rw [e1]; omega

/-- The second bias row's one block is the whole row. -/
theorem b2Blk_apply (c : Dev nD) (t : Fin cfg2.N) (z : Fin 1) (k3 : Fin 64) :
    b2Blk V c t (ix2 z k3) = b2Arr V c (ix2 z k3) := by
  obtain ⟨-, -, -, -, -, -, -, -, e0, e1, -⟩ := block_positions t
  unfold b2Blk iblk2
  rw [View.read_apply]
  show V c main_v61 _ = V c main_v61 _
  refine congrArg _ ?_
  funext a
  apply Fin.ext
  match a with
  | ⟨0, _⟩ => show win2_4.index t (0 : Fin 2) * 1 + 1 * z.val = z.val; rw [e0]; omega
  | ⟨1, _⟩ => show win2_4.index t (1 : Fin 2) * 64 + 1 * k3.val = k3.val; rw [e1]; omega

/-- The third weights' one block is the whole column. -/
theorem w3Blk_apply (c : Dev nD) (t : Fin cfg2.N) (k3 : Fin 64) (z : Fin 1) :
    w3Blk V c t (ix2 k3 z) = w3Arr V c (ix2 k3 z) := by
  obtain ⟨-, -, -, -, -, -, -, -, -, -, e0, e1, -⟩ := block_positions t
  unfold w3Blk iblk2
  rw [View.read_apply]
  show V c main_arg14 _ = V c main_arg14 _
  refine congrArg _ ?_
  funext a
  apply Fin.ext
  match a with
  | ⟨0, _⟩ => show win2_5.index t (0 : Fin 2) * 64 + 1 * k3.val = k3.val; rw [e0]; omega
  | ⟨1, _⟩ => show win2_5.index t (1 : Fin 2) * 1 + 1 * z.val = z.val; rw [e1]; omega

/-- The third bias's one block is its one entry. -/
theorem b3Blk_apply (c : Dev nD) (t : Fin cfg2.N) (z : Fin 1) (z' : Fin 1) :
    b3Blk V c t (ix2 z z') = b3Arr V c (ix2 z z') := by
  obtain ⟨-, -, -, -, -, -, -, -, -, -, -, -, e0, e1, -⟩ := block_positions t
  unfold b3Blk iblk2
  rw [View.read_apply]
  show V c main_v62 _ = V c main_v62 _
  refine congrArg _ ?_
  funext a
  apply Fin.ext
  match a with
  | ⟨0, _⟩ => show win2_6.index t (0 : Fin 2) * 1 + 1 * z.val = z.val; rw [e0]; omega
  | ⟨1, _⟩ => show win2_6.index t (1 : Fin 2) * 1 + 1 * z'.val = z'.val; rw [e1]; omega

/-! ## One row of one block -/

/-- The body's score at row `p` of point `t`'s block is the head function at row `5000 t + p` of the arrays. -/
theorem head_block (c : Dev nD) (t : Fin cfg2.N) (p : Fin 5000) (r : Fin 100000) (hr : r.val = 5000 * t.val + p.val) :
    k2_pay1 (F := Ideal) (pairBlk V c t) (w1Blk V c t) (b1Blk V c t) (w2Blk V c t) (b2Blk V c t) (w3Blk V c t)
        (b3Blk V c t) (ix2 p (0 : Fin 1))
      = Cert.Rgcn.headAt (pairArr V c) (w1Arr V c) (Cert.Rgcn.row (b1Arr V c)) (w2Arr V c) (Cert.Rgcn.row (b2Arr V c))
          (w3Arr V c) (Cert.Rgcn.row (b3Arr V c)) r := by
  rw [HeadPayload.pay2_apply]
  unfold Cert.Rgcn.headAt Cert.Rgcn.hid2At Cert.Rgcn.hid1At Cert.Rgcn.row
  simp only [pairBlk_apply V c t p _ r hr, w1Blk_apply, b1Blk_apply, w2Blk_apply, b2Blk_apply, w3Blk_apply, b3Blk_apply]

/-! ## From the blocks to the column -/

/-- What point `t` writes back is block `t` of the head function of the arrays the region finds. -/
theorem flushed_eq (c : Dev nD) (t : Fin cfg2.N) :
    (dat2 (F := Ideal) V c).flushed 7 t
      = ((cfg2.win 7).blk t).view.read (Elt Ideal)
          (Cert.Rgcn.head (V c main_v59) (V c main_arg10) (Cert.Rgcn.row (V c main_v60)) (V c main_arg12)
            (Cert.Rgcn.row (V c main_v61)) (V c main_arg14) (Cert.Rgcn.row (V c main_v62))) := by
  show (cfg2.win 7).cut (grid2.coords t) ((dat2 V c).after 7 t) = _
  rw [after2_7]
  unfold out2_7
  rw [View.canon_unit_zero zero_offsets]
  simp only [View.ld_unit_zero (S := S5000x256) zero_offsets, View.ld_unit_zero (S := S256x128) zero_offsets,
    View.ld_unit_zero (S := S1x128) zero_offsets, View.ld_unit_zero (S := S128x64) zero_offsets,
    View.ld_unit_zero (S := S1x64) zero_offsets, View.ld_unit_zero (S := S64x1) zero_offsets,
    View.ld_unit_zero (S := S1x1) zero_offsets]
  funext j
  obtain ⟨p, z, rfl⟩ : ∃ (p : Fin 5000) (z : Fin 1), j = ix2 p z := ⟨j 0, j 1, eq_ix2 j⟩
  obtain rfl : z = 0 := Subsingleton.elim _ _
  obtain ⟨-, -, -, -, -, -, -, -, -, -, -, -, -, -, e0, -⟩ := block_positions t
  rw [View.read_apply]
  have hr : ((((cfg2.win 7).blk t).view.emb (ix2 p (0 : Fin 1))) (0 : Fin 2)).val = 5000 * t.val + p.val := by
    show win2_7.index t (0 : Fin 2) * 5000 + 1 * p.val = 5000 * t.val + p.val
    rw [e0]; omega
  exact head_block V c t p ((((cfg2.win 7).blk t).view.emb (ix2 p (0 : Fin 1))) (0 : Fin 2)) hr

/-- A row of the column is in point `t`'s block iff each coordinate is in the block's range on its axis. -/
theorem mem_blk (t : Fin cfg2.N) (i : S100000x1.Idx) :
    i ∈ ((cfg2.win 7).blk t).view.set ↔ ∀ a : Fin 2, win2_7.index t a * S5000x1.size a ≤ (i a).val
      ∧ (i a).val < win2_7.index t a * S5000x1.size a + S5000x1.size a := by
  show i ∈ ((View.whole main_v63).slice (win2_7.rect t)).set ↔ _
  rw [View.set_slice_whole, Rect.mem_set_unit]
  exact Iff.rfl

/-- Row `r` of the column is in the block of point `r / 5000`, and every point writes its block back. -/
theorem cover (i : S100000x1.Idx) :
    ∃ t : Fin cfg2.N, (cfg2.win 7).flush t = true ∧ i ∈ ((cfg2.win 7).blk t).view.set := by
  have hi0 : (i 0).val < 100000 := (i 0).isLt
  have hi1 : (i 1).val < 1 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, -, -, e0, e1⟩ := block_positions t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    rw [e0, ht]; omega
  | ⟨1, _⟩ =>
    show win2_7.index t (1 : Fin 2) * 1 ≤ (i 1).val ∧ (i 1).val < win2_7.index t (1 : Fin 2) * 1 + 1
    rw [e1]; omega

/-- The region's output column after its last point, from any entry contents `V`. -/
theorem final (c : Dev nD) :
    (dat2 (F := Ideal) V c).arrAt 7 cfg2.N
      = Cert.Rgcn.head (V c main_v59) (V c main_arg10) (Cert.Rgcn.row (V c main_v60)) (V c main_arg12)
          (Cert.Rgcn.row (V c main_v61)) (V c main_arg14) (Cert.Rgcn.row (V c main_v62)) := by
  exact (dat2 (F := Ideal) V c).arrAt_eq_of_cover 7 _ (fun t _ => flushed_eq V c t) cover

end Cert.KernelIdeal.Region2

end
-- ==== Proof.Final.lean ====
/-
  The head's region leaves the reference's column of scores in its output array, and the last host operation
  reshapes that column into the result vector: the kernel program's result is the reference's.
-/
import proofs.«168571_j66898410602822_1_alg».proof.Proof.Host2
import proofs.«168571_j66898410602822_1_alg».proof.Proof.Region2
import Idealize.ShloMosaic.Lib.StableHlo.Run

noncomputable section

open scoped BigOperators

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- At the head region's exit its output column is the reference's column of scores. -/
theorem exit2 (c : Dev nD) :
    W6 m ρ c (Proc.devRef .tc main_v63) = Cert.ReferenceIdeal.Read.val_main_v94 (F := Ideal) (a0 m c) (a1 m c) (a3 m c) (a4 m c) (a5 m c) (a6 m c) (a7 m c) (a8 m c) (a9 m c) (a10 m c) (a11 m c) (a12 m c) (a13 m c) (a14 m c) (a15 m c) :=
  calc W6 m ρ c (Proc.devRef .tc main_v63)
      = (dat2 (V5 m ρ) c).arrAt 7 cfg2.N := W6_arr m ρ c 7
    _ = Cert.Rgcn.head (V5 m ρ c main_v59) (V5 m ρ c main_arg10) (Cert.Rgcn.row (V5 m ρ c main_v60)) (V5 m ρ c main_arg12)
          (Cert.Rgcn.row (V5 m ρ c main_v61)) (V5 m ρ c main_arg14) (Cert.Rgcn.row (V5 m ρ c main_v62)) :=
        Cert.KernelIdeal.Region2.final (V5 m ρ) c
    _ = Cert.Rgcn.head (Cert.ReferenceIdeal.Read.val_main_v74 (F := Ideal) (a0 m c) (a1 m c) (a3 m c) (a4 m c) (a5 m c) (a6 m c) (a7 m c) (a8 m c) (a9 m c)) (a10 m c) (a11 m c) (a12 m c)
          (a13 m c) (a14 m c) (a15 m c) := by
          rw [entry2_e, entry2_wp1, entry2_bp1, entry2_wp2, entry2_bp2, entry2_wp3, entry2_bp3]
    _ = _ := (Cert.ReferenceIdeal.Layers.head _ _ _ _ _ _ _ _ _ _ _ _ _ _ _).symm

/-- The result buffer at the last boundary is the reference's result as a function of the launch arguments. -/
theorem result (c : Dev nD) :
    W7 m ρ c (Proc.devRef .tc main_v64) = Cert.ReferenceIdeal.Read.val_main_v95 (F := Ideal) (a0 m c) (a1 m c) (a3 m c) (a4 m c) (a5 m c) (a6 m c) (a7 m c) (a8 m c) (a9 m c) (a10 m c) (a11 m c) (a12 m c) (a13 m c) (a14 m c) (a15 m c) := by
  show StableHlo.after hostOps3 (W6 m ρ c) (Proc.devRef .tc main_v64) = _
  after_results
  rw [exit2]
  rfl

end Cert.KernelIdeal.Host

end
-- ==== Proof.lean ====
/-
  The kernel program and its reference compute one function of their arguments over the extended reals.

  Both programs run two graph-convolution layers and a three-layer link head over the same edge list. Each layer
  gathers the source rows of the node features, sums them at the destination nodes, divides by the node's edge count
  (at least one), multiplies by the relation weights, adds the node's own features times the root weights and the bias,
  and clamps at zero; the head gathers both endpoints of each pair, applies three affine maps with a clamp at zero after
  the first two, and the logistic function after the third.
  The kernel program computes each dense stage block by block, twenty blocks of 5000 rows, with each matrix product
  narrowed to half precision on the way in (the identity over the extended reals); its blocks tile the output, so each
  region leaves the stage's whole-array function of the arrays it finds (Proof/Region0, Region1, Region2 over the
  bodies read at an index, Proof/LayerPayload and HeadPayload). The reference's stages are the same functions
  (Proof/RefLayers). Between the regions the two programs apply the same gathers and scatter-adds to the same arrays;
  the one difference is that the kernel program multiplies by the reciprocal of `max count 1` where the reference
  divides by it, and dividing by a nonzero number is multiplying by its reciprocal for every extended real
  (Proof/Host0, Host1, Host2; the chain is closed in Proof/Exit0, Exit1, Final). The reference spells the logistic
  function as `1 / (1 + exp (-z))`, which is the function the kernel applies. No finiteness of the inputs is used.
  The kernel program's run with its result named is Proof/KernelRun; the reference's run and its stages read at an
  index are the generated modules Gen/ReferenceIdeal/Run and Read.
-/
import proofs.«168571_j66898410602822_1_alg».proof.Defs
import proofs.«168571_j66898410602822_1_alg».proof.Proof.Gen.Kernel
import proofs.«168571_j66898410602822_1_alg».proof.Proof.Gen.Kernel.Frame
import proofs.«168571_j66898410602822_1_alg».proof.Proof.Gen.KernelIdeal
import proofs.«168571_j66898410602822_1_alg».proof.Proof.Gen.KernelIdeal.Frame
import proofs.«168571_j66898410602822_1_alg».proof.Proof.Gen.ReferenceIdeal
import proofs.«168571_j66898410602822_1_alg».proof.Proof.Gen.Pre_finite_inputs
import proofs.«168571_j66898410602822_1_alg».proof.Proof.Gen.ReferenceIdeal.Run
import proofs.«168571_j66898410602822_1_alg».proof.Proof.Gen.ReferenceIdeal.Read
import proofs.«168571_j66898410602822_1_alg».proof.Proof.KernelRun
import proofs.«168571_j66898410602822_1_alg».proof.Proof.Final
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both programs end with the reference's result function of those
    arguments in their result buffers. -/
theorem algebraic : Cert.algebraic_KernelIdeal_ReferenceIdeal := by
  intro m ρ m' ρ' _ hagree
  refine ⟨fun c => Cert.ReferenceIdeal.Read.val_main_v95 (F := Ideal) (Cert.KernelIdeal.Host.a0 m c) (Cert.KernelIdeal.Host.a1 m c) (Cert.KernelIdeal.Host.a3 m c) (Cert.KernelIdeal.Host.a4 m c) (Cert.KernelIdeal.Host.a5 m c) (Cert.KernelIdeal.Host.a6 m c) (Cert.KernelIdeal.Host.a7 m c) (Cert.KernelIdeal.Host.a8 m c) (Cert.KernelIdeal.Host.a9 m c) (Cert.KernelIdeal.Host.a10 m c) (Cert.KernelIdeal.Host.a11 m c) (Cert.KernelIdeal.Host.a12 m c) (Cert.KernelIdeal.Host.a13 m c) (Cert.KernelIdeal.Host.a14 m c) (Cert.KernelIdeal.Host.a15 m c), ?_, ?_⟩
  · exact (θ_run Cert.KernelIdeal.defs _ _).mono
      (fun r h c => ⟨(h c).1.trans (Cert.KernelIdeal.Host.result m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v95_eq, h0, h1, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
